-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x98 : Shape := ⟨2, ![1048576, 98]⟩
abbrev S64x63 : Shape := ⟨2, ![64, 63]⟩
abbrev S64x64 : Shape := ⟨2, ![64, 64]⟩
abbrev S17x64 : Shape := ⟨2, ![17, 64]⟩
abbrev S64x42 : Shape := ⟨2, ![64, 42]⟩
abbrev S3x64 : Shape := ⟨2, ![3, 64]⟩
abbrev S64x71 : Shape := ⟨2, ![64, 71]⟩
abbrev S_ : Shape := ⟨0, ![]⟩

class Facts : Prop where
  bcast_S_S1048576x98 : S_.BroadcastsInDim S1048576x98 (![] : Fin 0 → Fin S1048576x98.rank)
  reducesTo_S1048576x98_S_d0_1 : S1048576x98.ReducesTo [0, 1] S_
  h_S_ : 0 < S_.numel
  bcast_S_S64x63 : S_.BroadcastsInDim S64x63 (![] : Fin 0 → Fin S64x63.rank)
  reducesTo_S64x63_S_d0_1 : S64x63.ReducesTo [0, 1] S_
  bcast_S_S64x64 : S_.BroadcastsInDim S64x64 (![] : Fin 0 → Fin S64x64.rank)
  reducesTo_S64x64_S_d0_1 : S64x64.ReducesTo [0, 1] S_
  bcast_S_S17x64 : S_.BroadcastsInDim S17x64 (![] : Fin 0 → Fin S17x64.rank)
  reducesTo_S17x64_S_d0_1 : S17x64.ReducesTo [0, 1] S_
  bcast_S_S64x42 : S_.BroadcastsInDim S64x42 (![] : Fin 0 → Fin S64x42.rank)
  reducesTo_S64x42_S_d0_1 : S64x42.ReducesTo [0, 1] S_
  bcast_S_S3x64 : S_.BroadcastsInDim S3x64 (![] : Fin 0 → Fin S3x64.rank)
  reducesTo_S3x64_S_d0_1 : S3x64.ReducesTo [0, 1] S_
  bcast_S_S64x71 : S_.BroadcastsInDim S64x71 (![] : Fin 0 → Fin S64x71.rank)
  reducesTo_S64x71_S_d0_1 : S64x71.ReducesTo [0, 1] S_

variable [Facts]

def fn_part4 {F : FTy → Type} [FloatOps F] (main_arg14 : FVec F S3x64 .f32) (main_v63 : IVec S_ 1) (main_v67 : IVec S_ 1) : IVec S_ 1 :=
  let main_v68 : IVec S_ 1 := andi main_v63 main_v67
  let main_v69 : FVec F S3x64 .f32 := Host.absf main_arg14
  let main_cst_26 : FVec F S_ .f32 := constant S_ .f32 0x7F800000#32
  let main_v70 : FVec F S3x64 .f32 := broadcastInDim S3x64 ![] bcast_S_S3x64 main_cst_26
  let main_v71 : IVec S3x64 1 := cmpf .olt main_v69 main_v70
  let main_c_27 : IVec S_ 1 := constantI S_ 1 1#1
  let main_v72 : IVec S_ 1 := (fun x v => Host.reduce IntOp.andi x v reducesTo_S3x64_S_d0_1 h_S_) main_v71 main_c_27
  let main_v73 : IVec S_ 1 := andi main_v68 main_v72
  main_v73

def fn_part3 {F : FTy → Type} [FloatOps F] (main_arg11 : FVec F S64x42 .f32) (main_arg12 : FVec F S64x64 .f32) (main_arg13 : FVec F S64x64 .f32) (main_arg14 : FVec F S3x64 .f32) (main_v48 : IVec S_ 1) (main_v49 : FVec F S17x64 .f32) (main_v50 : FVec F S17x64 .f32) : IVec S_ 1 :=
  let main_v51 : IVec S17x64 1 := cmpf .olt main_v49 main_v50
  let main_c_19 : IVec S_ 1 := constantI S_ 1 1#1
  let main_v52 : IVec S_ 1 := (fun x v => Host.reduce IntOp.andi x v reducesTo_S17x64_S_d0_1 h_S_) main_v51 main_c_19
  let main_v53 : IVec S_ 1 := andi main_v48 main_v52
  let main_v54 : FVec F S64x42 .f32 := Host.absf main_arg11
  let main_cst_20 : FVec F S_ .f32 := constant S_ .f32 0x7F800000#32
  let main_v55 : FVec F S64x42 .f32 := broadcastInDim S64x42 ![] bcast_S_S64x42 main_cst_20
  let main_v56 : IVec S64x42 1 := cmpf .olt main_v54 main_v55
  let main_c_21 : IVec S_ 1 := constantI S_ 1 1#1
  let main_v57 : IVec S_ 1 := (fun x v => Host.reduce IntOp.andi x v reducesTo_S64x42_S_d0_1 h_S_) main_v56 main_c_21
  let main_v58 : IVec S_ 1 := andi main_v53 main_v57
  let main_v59 : FVec F S64x64 .f32 := Host.absf main_arg12
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64x64 .f32 := Host.absf main_arg13
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg14 main_v63 main_v67

def fn_part2 {F : FTy → Type} [FloatOps F] (main_arg7 : FVec F S3x64 .f32) (main_arg8 : FVec F S64x71 .f32) (main_arg9 : FVec F S64x64 .f32) (main_arg10 : FVec F S17x64 .f32) (main_arg11 : FVec F S64x42 .f32) (main_arg12 : FVec F S64x64 .f32) (main_arg13 : FVec F S64x64 .f32) (main_arg14 : FVec F S3x64 .f32) (main_v33 : IVec S_ 1) : IVec S_ 1 :=
  let main_v34 : FVec F S3x64 .f32 := Host.absf main_arg7
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S64x71 .f32 := Host.absf main_arg8
  let main_cst_14 : FVec F S_ .f32 := constant S_ .f32 0x7F800000#32
  let main_v40 : FVec F S64x71 .f32 := broadcastInDim S64x71 ![] bcast_S_S64x71 main_cst_14
  let main_v41 : IVec S64x71 1 := cmpf .olt main_v39 main_v40
  let main_c_15 : IVec S_ 1 := constantI S_ 1 1#1
  let main_v42 : IVec S_ 1 := (fun x v => Host.reduce IntOp.andi x v reducesTo_S64x71_S_d0_1 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S17x64 .f32 := Host.absf main_arg10
  let main_cst_18 : FVec F S_ .f32 := constant S_ .f32 0x7F800000#32
  let main_v50 : FVec F S17x64 .f32 := broadcastInDim S17x64 ![] bcast_S_S17x64 main_cst_18
  fn_part3 (F := F) main_arg11 main_arg12 main_arg13 main_arg14 main_v48 main_v49 main_v50

def fn_part1 {F : FTy → Type} [FloatOps F] (main_arg4 : FVec F S64x42 .f32) (main_arg5 : FVec F S64x64 .f32) (main_arg6 : FVec F S64x64 .f32) (main_arg7 : FVec F S3x64 .f32) (main_arg8 : FVec F S64x71 .f32) (main_arg9 : FVec F S64x64 .f32) (main_arg10 : FVec F S17x64 .f32) (main_arg11 : FVec F S64x42 .f32) (main_arg12 : FVec F S64x64 .f32) (main_arg13 : FVec F S64x64 .f32) (main_arg14 : FVec F S3x64 .f32) (main_v13 : IVec S_ 1) (main_v16 : IVec S17x64 1) : IVec S_ 1 :=
  let main_c_5 : IVec S_ 1 := constantI S_ 1 1#1
  let main_v17 : IVec S_ 1 := (fun x v => Host.reduce IntOp.andi x v reducesTo_S17x64_S_d0_1 h_S_) main_v16 main_c_5
  let main_v18 : IVec S_ 1 := andi main_v13 main_v17
  let main_v19 : FVec F S64x42 .f32 := Host.absf main_arg4
  let main_cst_6 : FVec F S_ .f32 := constant S_ .f32 0x7F800000#32
  let main_v20 : FVec F S64x42 .f32 := broadcastInDim S64x42 ![] bcast_S_S64x42 main_cst_6
  let main_v21 : IVec S64x42 1 := cmpf .olt main_v19 main_v20
  let main_c_7 : IVec S_ 1 := constantI S_ 1 1#1
  let main_v22 : IVec S_ 1 := (fun x v => Host.reduce IntOp.andi x v reducesTo_S64x42_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S1048576x98 .f32) (main_arg1 : FVec F S64x63 .f32) (main_arg2 : FVec F S64x64 .f32) (main_arg3 : FVec F S17x64 .f32) (main_arg4 : FVec F S64x42 .f32) (main_arg5 : FVec F S64x64 .f32) (main_arg6 : FVec F S64x64 .f32) (main_arg7 : FVec F S3x64 .f32) (main_arg8 : FVec F S64x71 .f32) (main_arg9 : FVec F S64x64 .f32) (main_arg10 : FVec F S17x64 .f32) (main_arg11 : FVec F S64x42 .f32) (main_arg12 : FVec F S64x64 .f32) (main_arg13 : FVec F S64x64 .f32) (main_arg14 : FVec F S3x64 .f32) : IVec S_ 1 :=
  let main_v0 : FVec F S1048576x98 .f32 := Host.absf main_arg0
  let main_cst : FVec F S_ .f32 := constant S_ .f32 0x7F800000#32
  let main_v1 : FVec F S1048576x98 .f32 := broadcastInDim S1048576x98 ![] bcast_S_S1048576x98 main_cst
  let main_v2 : IVec S1048576x98 1 := cmpf .olt main_v0 main_v1
  let main_c : IVec S_ 1 := constantI S_ 1 1#1
  let main_v3 : IVec S_ 1 := (fun x v => Host.reduce IntOp.andi x v reducesTo_S1048576x98_S_d0_1 h_S_) main_v2 main_c
  let main_v4 : FVec F S64x63 .f32 := Host.absf main_arg1
  let main_cst_0 : FVec F S_ .f32 := constant S_ .f32 0x7F800000#32
  let main_v5 : FVec F S64x63 .f32 := broadcastInDim S64x63 ![] bcast_S_S64x63 main_cst_0
  let main_v6 : IVec S64x63 1 := cmpf .olt main_v4 main_v5
  let main_c_1 : IVec S_ 1 := constantI S_ 1 1#1
  let main_v7 : IVec S_ 1 := (fun x v => Host.reduce IntOp.andi x v reducesTo_S64x63_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S17x64 .f32 := Host.absf main_arg3
  let main_cst_4 : FVec F S_ .f32 := constant S_ .f32 0x7F800000#32
  let main_v15 : FVec F S17x64 .f32 := broadcastInDim S17x64 ![] bcast_S_S17x64 main_cst_4
  let main_v16 : IVec S17x64 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S1048576x98 : Shape := ⟨2, ![1048576, 98]⟩
abbrev S64x63 : Shape := ⟨2, ![64, 63]⟩
abbrev S64x64 : Shape := ⟨2, ![64, 64]⟩
abbrev S17x64 : Shape := ⟨2, ![17, 64]⟩
abbrev S64x42 : Shape := ⟨2, ![64, 42]⟩
abbrev S3x64 : Shape := ⟨2, ![3, 64]⟩
abbrev S64x71 : Shape := ⟨2, ![64, 71]⟩
abbrev S63x64 : Shape := ⟨2, ![63, 64]⟩
abbrev S64x17 : Shape := ⟨2, ![64, 17]⟩
abbrev S42x64 : Shape := ⟨2, ![42, 64]⟩
abbrev S64x3 : Shape := ⟨2, ![64, 3]⟩
abbrev S71x64 : Shape := ⟨2, ![71, 64]⟩
abbrev S1048576x6 : Shape := ⟨2, ![1048576, 6]⟩
abbrev S16384x98 : Shape := ⟨2, ![16384, 98]⟩
abbrev S16384x6 : Shape := ⟨2, ![16384, 6]⟩
abbrev S16384x63 : Shape := ⟨2, ![16384, 63]⟩
abbrev S16384x71 : Shape := ⟨2, ![16384, 71]⟩
abbrev S16384x27 : Shape := ⟨2, ![16384, 27]⟩
abbrev S16384x64 : Shape := ⟨2, ![16384, 64]⟩
abbrev S16384x17 : Shape := ⟨2, ![16384, 17]⟩
abbrev S16384x1 : Shape := ⟨2, ![16384, 1]⟩
abbrev S16384x15 : Shape := ⟨2, ![16384, 15]⟩
abbrev S16384x42 : Shape := ⟨2, ![16384, 42]⟩
abbrev S16384x3 : Shape := ⟨2, ![16384, 3]⟩

abbrev nBuf : Space → Nat
  | .hbm => 44
  | .vmem => 18
  | .smem => 0
  | _ => 0

abbrev bufTy : (tb : Table) → Fin (tcTables nBuf tb) → BufTy
  | .hbm, ⟨0, _⟩ => ⟨S1048576x98, .f32⟩
  | .hbm, ⟨1, _⟩ => ⟨S64x63, .f32⟩
  | .hbm, ⟨2, _⟩ => ⟨S64x64, .f32⟩
  | .hbm, ⟨3, _⟩ => ⟨S17x64, .f32⟩
  | .hbm, ⟨4, _⟩ => ⟨S64x42, .f32⟩
  | .hbm, ⟨5, _⟩ => ⟨S64x64, .f32⟩
  | .hbm, ⟨6, _⟩ => ⟨S64x64, .f32⟩
  | .hbm, ⟨7, _⟩ => ⟨S3x64, .f32⟩
  | .hbm, ⟨8, _⟩ => ⟨S64x71, .f32⟩
  | .hbm, ⟨9, _⟩ => ⟨S64x64, .f32⟩
  | .hbm, ⟨10, _⟩ => ⟨S17x64, .f32⟩
  | .hbm, ⟨11, _⟩ => ⟨S64x42, .f32⟩
  | .hbm, ⟨12, _⟩ => ⟨S64x64, .f32⟩
  | .hbm, ⟨13, _⟩ => ⟨S64x64, .f32⟩
  | .hbm, ⟨14, _⟩ => ⟨S3x64, .f32⟩
  | .hbm, ⟨15, _⟩ => ⟨S63x64, .f32⟩
  | .hbm, ⟨16, _⟩ => ⟨S63x64, .bf16⟩
  | .hbm, ⟨17, _⟩ => ⟨S64x64, .f32⟩
  | .hbm, ⟨18, _⟩ => ⟨S64x64, .bf16⟩
  | .hbm, ⟨19, _⟩ => ⟨S64x17, .f32⟩
  | .hbm, ⟨20, _⟩ => ⟨S64x17, .bf16⟩
  | .hbm, ⟨21, _⟩ => ⟨S42x64, .f32⟩
  | .hbm, ⟨22, _⟩ => ⟨S42x64, .bf16⟩
  | .hbm, ⟨23, _⟩ => ⟨S64x64, .f32⟩
  | .hbm, ⟨24, _⟩ => ⟨S64x64, .bf16⟩
  | .hbm, ⟨25, _⟩ => ⟨S64x64, .f32⟩
  | .hbm, ⟨26, _⟩ => ⟨S64x64, .bf16⟩
  | .hbm, ⟨27, _⟩ => ⟨S64x3, .f32⟩
  | .hbm, ⟨28, _⟩ => ⟨S64x3, .bf16⟩
  | .hbm, ⟨29, _⟩ => ⟨S71x64, .f32⟩
  | .hbm, ⟨30, _⟩ => ⟨S71x64, .bf16⟩
  | .hbm, ⟨31, _⟩ => ⟨S64x64, .f32⟩
  | .hbm, ⟨32, _⟩ => ⟨S64x64, .bf16⟩
  | .hbm, ⟨33, _⟩ => ⟨S64x17, .f32⟩
  | .hbm, ⟨34, _⟩ => ⟨S64x17, .bf16⟩
  | .hbm, ⟨35, _⟩ => ⟨S42x64, .f32⟩
  | .hbm, ⟨36, _⟩ => ⟨S42x64, .bf16⟩
  | .hbm, ⟨37, _⟩ => ⟨S64x64, .f32⟩
  | .hbm, ⟨38, _⟩ => ⟨S64x64, .bf16⟩
  | .hbm, ⟨39, _⟩ => ⟨S64x64, .f32⟩
  | .hbm, ⟨40, _⟩ => ⟨S64x64, .bf16⟩
  | .hbm, ⟨41, _⟩ => ⟨S64x3, .f32⟩
  | .hbm, ⟨42, _⟩ => ⟨S64x3, .bf16⟩
  | .hbm, ⟨43, _⟩ => ⟨S1048576x6, .f32⟩
  | .local _ .vmem, ⟨0, _⟩ => ⟨S16384x98, .f32⟩
  | .local _ .vmem, ⟨1, _⟩ => ⟨S16384x98, .f32⟩
  | .local _ .vmem, ⟨2, _⟩ => ⟨S63x64, .bf16⟩
  | .local _ .vmem, ⟨3, _⟩ => ⟨S64x64, .bf16⟩
  | .local _ .vmem, ⟨4, _⟩ => ⟨S64x17, .bf16⟩
  | .local _ .vmem, ⟨5, _⟩ => ⟨S42x64, .bf16⟩
  | .local _ .vmem, ⟨6, _⟩ => ⟨S64x64, .bf16⟩
  | .local _ .vmem, ⟨7, _⟩ => ⟨S64x64, .bf16⟩
  | .local _ .vmem, ⟨8, _⟩ => ⟨S64x3, .bf16⟩
  | .local _ .vmem, ⟨9, _⟩ => ⟨S71x64, .bf16⟩
  | .local _ .vmem, ⟨10, _⟩ => ⟨S64x64, .bf16⟩
  | .local _ .vmem, ⟨11, _⟩ => ⟨S64x17, .bf16⟩
  | .local _ .vmem, ⟨12, _⟩ => ⟨S42x64, .bf16⟩
  | .local _ .vmem, ⟨13, _⟩ => ⟨S64x64, .bf16⟩
  | .local _ .vmem, ⟨14, _⟩ => ⟨S64x64, .bf16⟩
  | .local _ .vmem, ⟨15, _⟩ => ⟨S64x3, .bf16⟩
  | .local _ .vmem, ⟨16, _⟩ => ⟨S16384x6, .f32⟩
  | .local _ .vmem, ⟨17, _⟩ => ⟨S16384x6, .f32⟩
  | _, _ => ⟨S1048576x98, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x98 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S63x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x17 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S42x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x3 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S71x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x17 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S42x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x64 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x64 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x3 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S16384x6 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  transposes_S64x63_S63x64_1_0 : S64x63.Transposes [1, 0] S63x64
  bitsLt_bf16_f32 : FTy.bits .bf16 < FTy.bits .f32
  transposes_S64x64_S64x64_1_0 : S64x64.Transposes [1, 0] S64x64
  transposes_S17x64_S64x17_1_0 : S17x64.Transposes [1, 0] S64x17
  transposes_S64x42_S42x64_1_0 : S64x42.Transposes [1, 0] S42x64
  transposes_S3x64_S64x3_1_0 : S3x64.Transposes [1, 0] S64x3
  transposes_S64x71_S71x64_1_0 : S64x71.Transposes [1, 0] S71x64
  inb_S16384x98_S16384x98_0_0 : ∀ a, (![0, 0] : Fin 2 → Nat) a + S16384x98.size a ≤ S16384x98.size a
  h_S16384x98 : 0 < S16384x98.numel
  slices_S16384x98_o0_0_S16384x63 : S16384x98.Slices ![0, 0] S16384x63
  slices_S16384x98_o0_0_S16384x71 : S16384x98.Slices ![0, 0] S16384x71
  slices_S16384x98_o0_71_S16384x27 : S16384x98.Slices ![0, 71] S16384x27
  inb_S63x64_S63x64_0_0 : ∀ a, (![0, 0] : Fin 2 → Nat) a + S63x64.size a ≤ S63x64.size a
  h_S63x64 : 0 < S63x64.numel
  shapeCasts_S63x64_S63x64 : S63x64.ShapeCasts S63x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x17_S64x17_0_0 : ∀ a, (![0, 0] : Fin 2 → Nat) a + S64x17.size a ≤ S64x17.size a
  h_S64x17 : 0 < S64x17.numel
  shapeCasts_S64x17_S64x17 : S64x17.ShapeCasts S64x17
  slices_S16384x17_o0_0_S16384x1 : S16384x17.Slices ![0, 0] S16384x1
  slices_S16384x17_o0_2_S16384x15 : S16384x17.Slices ![0, 2] S16384x15
  concatenates_S16384x27_S16384x15_S16384x42_d1 : Shape.Concatenates [S16384x27, S16384x15] S16384x42 1
  inb_S42x64_S42x64_0_0 : ∀ a, (![0, 0] : Fin 2 → Nat) a + S42x64.size a ≤ S42x64.size a
  h_S42x64 : 0 < S42x64.numel
  shapeCasts_S42x64_S42x64 : S42x64.ShapeCasts S42x64
  inb_S64x3_S64x3_0_0 : ∀ a, (![0, 0] : Fin 2 → Nat) a + S64x3.size a ≤ S64x3.size a
  h_S64x3 : 0 < S64x3.numel
  shapeCasts_S64x3_S64x3 : S64x3.ShapeCasts S64x3
  inb_S71x64_S71x64_0_0 : ∀ a, (![0, 0] : Fin 2 → Nat) a + S71x64.size a ≤ S71x64.size a
  h_S71x64 : 0 < S71x64.numel
  shapeCasts_S71x64_S71x64 : S71x64.ShapeCasts S71x64
  slices_S16384x17_o0_1_S16384x1 : S16384x17.Slices ![0, 1] S16384x1
  broadcasts_S16384x1_S16384x3 : S16384x1.Broadcasts S16384x3
  concatenates_S16384x3_S16384x1_S16384x1_S16384x1_S16384x6_d1 : Shape.Concatenates [S16384x3, S16384x1, S16384x1, S16384x1] S16384x6 1
  inb_S16384x6_S16384x6_0_0 : ∀ a, (![0, 0] : Fin 2 → Nat) a + S16384x6.size a ≤ S16384x6.size a
  h_S16384x6 : 0 < S16384x6.numel
  dot_S16384x63_S63x64_S16384x64_1_0_0_1_n_n_wf : DotDims.WF S16384x63 S63x64 S16384x64 [1] [0] [0] [1] [] []
  dot_S16384x64_S64x64_S16384x64_1_0_0_1_n_n_wf : DotDims.WF S16384x64 S64x64 S16384x64 [1] [0] [0] [1] [] []
  dot_S16384x64_S64x17_S16384x17_1_0_0_1_n_n_wf : DotDims.WF S16384x64 S64x17 S16384x17 [1] [0] [0] [1] [] []
  dot_S16384x42_S42x64_S16384x64_1_0_0_1_n_n_wf : DotDims.WF S16384x42 S42x64 S16384x64 [1] [0] [0] [1] [] []
  dot_S16384x64_S64x3_S16384x3_1_0_0_1_n_n_wf : DotDims.WF S16384x64 S64x3 S16384x3 [1] [0] [0] [1] [] []
  dot_S16384x71_S71x64_S16384x64_1_0_0_1_n_n_wf : DotDims.WF S16384x71 S71x64 S16384x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x98.size a ≤ S1048576x98.size a
  hwx0_0 : ∀ i : grid0.Coords, EltTy.bits .f32 = 32 ∨ (Rect.block (s := S1048576x98) S16384x98.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S63x64.size a ≤ S63x64.size a
  hwx0_1 : ∀ i : grid0.Coords, EltTy.bits .bf16 = 32 ∨ (Rect.block (s := S63x64) S63x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x17.size a ≤ S64x17.size a
  hwx0_3 : ∀ i : grid0.Coords, EltTy.bits .bf16 = 32 ∨ (Rect.block (s := S64x17) S64x17.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S42x64.size a ≤ S42x64.size a
  hwx0_4 : ∀ i : grid0.Coords, EltTy.bits .bf16 = 32 ∨ (Rect.block (s := S42x64) S42x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .bf16 = 32 ∨ (Rect.block (s := S64x64) S64x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x3.size a ≤ S64x3.size a
  hwx0_7 : ∀ i : grid0.Coords, EltTy.bits .bf16 = 32 ∨ (Rect.block (s := S64x3) S64x3.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S71x64.size a ≤ S71x64.size a
  hwx0_8 : ∀ i : grid0.Coords, EltTy.bits .bf16 = 32 ∨ (Rect.block (s := S71x64) S71x64.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .bf16 = 32 ∨ (Rect.block (s := S64x64) S64x64.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x17.size a ≤ S64x17.size a
  hwx0_10 : ∀ i : grid0.Coords, EltTy.bits .bf16 = 32 ∨ (Rect.block (s := S64x17) S64x17.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S42x64.size a ≤ S42x64.size a
  hwx0_11 : ∀ i : grid0.Coords, EltTy.bits .bf16 = 32 ∨ (Rect.block (s := S42x64) S42x64.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x64.size a ≤ S64x64.size a
  hwx0_12 : ∀ i : grid0.Coords, EltTy.bits .bf16 = 32 ∨ (Rect.block (s := S64x64) S64x64.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x64.size a ≤ S64x64.size a
  hwx0_13 : ∀ i : grid0.Coords, EltTy.bits .bf16 = 32 ∨ (Rect.block (s := S64x64) S64x64.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64x3.size a ≤ S64x3.size a
  hwx0_14 : ∀ i : grid0.Coords, EltTy.bits .bf16 = 32 ∨ (Rect.block (s := S64x3) S64x3.size (cc0_transform_14 i) (hinb0_14 i)).WholeWords (EltTy.packing .bf16)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S16384x6.size a ≤ S1048576x6.size a
  hwx0_15 : ∀ i : grid0.Coords, EltTy.bits .f32 = 32 ∨ (Rect.block (s := S1048576x6) S16384x6.size (cc0_transform_15 i) (hinb0_15 i)).WholeWords (EltTy.packing .f32)

variable [Facts₀]

def dot_S16384x63_S63x64_S16384x64_1_0_0_1_n_n : DotDims S16384x63 S63x64 S16384x64 where
  lhsContracting := [1]
  rhsContracting := [0]
  lhsNonContracting := [0]
  rhsNonContracting := [1]
  lhsBatch := []
  rhsBatch := []
  wf := dot_S16384x63_S63x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x64_S64x17_S16384x17_1_0_0_1_n_n : DotDims S16384x64 S64x17 S16384x17 where
  lhsContracting := [1]
  rhsContracting := [0]
  lhsNonContracting := [0]
  rhsNonContracting := [1]
  lhsBatch := []
  rhsBatch := []
  wf := dot_S16384x64_S64x17_S16384x17_1_0_0_1_n_n_wf
def dot_S16384x42_S42x64_S16384x64_1_0_0_1_n_n : DotDims S16384x42 S42x64 S16384x64 where
  lhsContracting := [1]
  rhsContracting := [0]
  lhsNonContracting := [0]
  rhsNonContracting := [1]
  lhsBatch := []
  rhsBatch := []
  wf := dot_S16384x42_S42x64_S16384x64_1_0_0_1_n_n_wf
def dot_S16384x64_S64x3_S16384x3_1_0_0_1_n_n : DotDims S16384x64 S64x3 S16384x3 where
  lhsContracting := [1]
  rhsContracting := [0]
  lhsNonContracting := [0]
  rhsNonContracting := [1]
  lhsBatch := []
  rhsBatch := []
  wf := dot_S16384x64_S64x3_S16384x3_1_0_0_1_n_n_wf
def dot_S16384x71_S71x64_S16384x64_1_0_0_1_n_n : DotDims S16384x71 S71x64 S16384x64 where
  lhsContracting := [1]
  rhsContracting := [0]
  lhsNonContracting := [0]
  rhsNonContracting := [1]
  lhsBatch := []
  rhsBatch := []
  wf := dot_S16384x71_S71x64_S16384x64_1_0_0_1_n_n_wf

abbrev win0_0 : Pipeline.Window sig grid0 :=
  Pipeline.Window.ofSpec (Memref.whole main_arg0) S16384x98.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S63x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S64x17.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S42x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S64x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S71x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v19) S64x17.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v21) S42x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v23) S64x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v25) S64x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v27) S64x3.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v28) S16384x6.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S1048576x98 : Shape := ⟨2, ![1048576, 98]⟩
abbrev S64x63 : Shape := ⟨2, ![64, 63]⟩
abbrev S64x64 : Shape := ⟨2, ![64, 64]⟩
abbrev S17x64 : Shape := ⟨2, ![17, 64]⟩
abbrev S64x42 : Shape := ⟨2, ![64, 42]⟩
abbrev S3x64 : Shape := ⟨2, ![3, 64]⟩
abbrev S64x71 : Shape := ⟨2, ![64, 71]⟩
abbrev S1048576x71 : Shape := ⟨2, ![1048576, 71]⟩
abbrev S1048576x27 : Shape := ⟨2, ![1048576, 27]⟩
abbrev S1048576x63 : Shape := ⟨2, ![1048576, 63]⟩
abbrev S63x64 : Shape := ⟨2, ![63, 64]⟩
abbrev S1048576x64 : Shape := ⟨2, ![1048576, 64]⟩
abbrev S_ : Shape := ⟨0, ![]⟩
abbrev S64x17 : Shape := ⟨2, ![64, 17]⟩
abbrev S1048576x17 : Shape := ⟨2, ![1048576, 17]⟩
abbrev S1048576x1 : Shape := ⟨2, ![1048576, 1]⟩
abbrev S1048576 : Shape := ⟨1, ![1048576]⟩
abbrev S1048576x15 : Shape := ⟨2, ![1048576, 15]⟩
abbrev S1048576x42 : Shape := ⟨2, ![1048576, 42]⟩
abbrev S42x64 : Shape := ⟨2, ![42, 64]⟩
abbrev S64x3 : Shape := ⟨2, ![64, 3]⟩
abbrev S1048576x3 : Shape := ⟨2, ![1048576, 3]⟩
abbrev S71x64 : Shape := ⟨2, ![71, 64]⟩
abbrev S1048576x6 : Shape := ⟨2, ![1048576, 6]⟩

abbrev nBuf : Space → Nat
  | .hbm => 161
  | .vmem => 0
  | .smem => 0
  | _ => 0

abbrev hbmTy0_0 (i : Nat) : BufTy := match i % 128 with
  | 0 => ⟨S1048576x98, .f32⟩
  | 1 => ⟨S64x63, .f32⟩
  | 2 => ⟨S64x64, .f32⟩
  | 3 => ⟨S17x64, .f32⟩
  | 4 => ⟨S64x42, .f32⟩
  | 5 => ⟨S64x64, .f32⟩
  | 6 => ⟨S64x64, .f32⟩
  | 7 => ⟨S3x64, .f32⟩
  | 8 => ⟨S64x71, .f32⟩
  | 9 => ⟨S64x64, .f32⟩
  | 10 => ⟨S17x64, .f32⟩
  | 11 => ⟨S64x42, .f32⟩
  | 12 => ⟨S64x64, .f32⟩
  | 13 => ⟨S64x64, .f32⟩
  | 14 => ⟨S3x64, .f32⟩
  | 15 => ⟨S1048576x71, .f32⟩
  | 16 => ⟨S1048576x27, .f32⟩
  | 17 => ⟨S1048576x63, .f32⟩
  | 18 => ⟨S63x64, .f32⟩
  | 19 => ⟨S1048576x64, .f32⟩
  | 20 => ⟨S_, .f32⟩
  | 21 => ⟨S1048576x64, .f32⟩
  | 22 => ⟨S1048576x64, .f32⟩
  | 23 => ⟨S64x64, .f32⟩
  | 24 => ⟨S1048576x64, .f32⟩
  | 25 => ⟨S_, .f32⟩
  | 26 => ⟨S1048576x64, .f32⟩
  | 27 => ⟨S1048576x64, .f32⟩
  | 28 => ⟨S64x17, .f32⟩
  | 29 => ⟨S1048576x17, .f32⟩
  | 30 => ⟨S1048576x1, .f32⟩
  | 31 => ⟨S1048576, .f32⟩
  | 32 => ⟨S_, .f32⟩
  | 33 => ⟨S1048576, .f32⟩
  | 34 => ⟨S1048576, .f32⟩
  | 35 => ⟨S1048576, .f32⟩
  | 36 => ⟨S1048576, .f32⟩
  | 37 => ⟨S1048576, .i1⟩
  | 38 => ⟨S1048576, .f32⟩
  | 39 => ⟨S1048576, .f32⟩
  | 40 => ⟨S1048576, .f32⟩
  | 41 => ⟨S1048576, .f32⟩
  | 42 => ⟨S1048576, .f32⟩
  | 43 => ⟨S1048576, .f32⟩
  | 44 => ⟨S1048576, .f32⟩
  | 45 => ⟨S1048576, .f32⟩
  | 46 => ⟨S1048576x1, .f32⟩
  | 47 => ⟨S1048576, .f32⟩
  | 48 => ⟨S_, .f32⟩
  | 49 => ⟨S1048576, .f32⟩
  | 50 => ⟨S1048576, .f32⟩
  | 51 => ⟨S1048576, .f32⟩
  | 52 => ⟨S1048576, .f32⟩
  | 53 => ⟨S1048576, .i1⟩
  | 54 => ⟨S1048576, .f32⟩
  | 55 => ⟨S1048576, .f32⟩
  | 56 => ⟨S1048576, .f32⟩
  | 57 => ⟨S1048576, .f32⟩
  | 58 => ⟨S1048576, .f32⟩
  | 59 => ⟨S1048576, .f32⟩
  | 60 => ⟨S1048576, .f32⟩
  | 61 => ⟨S1048576, .f32⟩
  | 62 => ⟨S1048576x15, .f32⟩
  | 63 => ⟨S1048576x42, .f32⟩
  | 64 => ⟨S42x64, .f32⟩
  | 65 => ⟨S1048576x64, .f32⟩
  | 66 => ⟨S_, .f32⟩
  | 67 => ⟨S1048576x64, .f32⟩
  | 68 => ⟨S1048576x64, .f32⟩
  | 69 => ⟨S64x64, .f32⟩
  | 70 => ⟨S1048576x64, .f32⟩
  | 71 => ⟨S_, .f32⟩
  | 72 => ⟨S1048576x64, .f32⟩
  | 73 => ⟨S1048576x64, .f32⟩
  | 74 => ⟨S64x64, .f32⟩
  | 75 => ⟨S1048576x64, .f32⟩
  | 76 => ⟨S_, .f32⟩
  | 77 => ⟨S1048576x64, .f32⟩
  | 78 => ⟨S1048576x64, .f32⟩
  | 79 => ⟨S64x3, .f32⟩
  | 80 => ⟨S1048576x3, .f32⟩
  | 81 => ⟨S71x64, .f32⟩
  | 82 => ⟨S1048576x64, .f32⟩
  | 83 => ⟨S_, .f32⟩
  | 84 => ⟨S1048576x64, .f32⟩
  | 85 => ⟨S1048576x64, .f32⟩
  | 86 => ⟨S64x64, .f32⟩
  | 87 => ⟨S1048576x64, .f32⟩
  | 88 => ⟨S_, .f32⟩
  | 89 => ⟨S1048576x64, .f32⟩
  | 90 => ⟨S1048576x64, .f32⟩
  | 91 => ⟨S64x17, .f32⟩
  | 92 => ⟨S1048576x17, .f32⟩
  | 93 => ⟨S1048576x1, .f32⟩
  | 94 => ⟨S1048576, .f32⟩
  | 95 => ⟨S_, .f32⟩
  | 96 => ⟨S1048576, .f32⟩
  | 97 => ⟨S1048576, .f32⟩
  | 98 => ⟨S1048576, .f32⟩
  | 99 => ⟨S1048576, .f32⟩
  | 100 => ⟨S1048576, .i1⟩
  | 101 => ⟨S1048576, .f32⟩
  | 102 => ⟨S1048576, .f32⟩
  | 103 => ⟨S1048576, .f32⟩
  | 104 => ⟨S1048576, .f32⟩
  | 105 => ⟨S1048576, .f32⟩
  | 106 => ⟨S1048576, .f32⟩
  | 107 => ⟨S1048576, .f32⟩
  | 108 => ⟨S1048576, .f32⟩
  | 109 => ⟨S1048576x1, .f32⟩
  | 110 => ⟨S1048576, .f32⟩
  | 111 => ⟨S_, .f32⟩
  | 112 => ⟨S1048576, .f32⟩
  | 113 => ⟨S1048576, .f32⟩
  | 114 => ⟨S1048576, .f32⟩
  | 115 => ⟨S1048576, .f32⟩
  | 116 => ⟨S1048576, .i1⟩
  | 117 => ⟨S1048576, .f32⟩
  | 118 => ⟨S1048576, .f32⟩
  | 119 => ⟨S1048576, .f32⟩
  | 120 => ⟨S1048576, .f32⟩
  | 121 => ⟨S1048576, .f32⟩
  | 122 => ⟨S1048576, .f32⟩
  | 123 => ⟨S1048576, .f32⟩
  | 124 => ⟨S1048576, .f32⟩
  | 125 => ⟨S1048576x15, .f32⟩
  | 126 => ⟨S1048576x42, .f32⟩
  | 127 => ⟨S42x64, .f32⟩
  | _ => ⟨S1048576x98, .f32⟩

abbrev hbmTy0_1 (i : Nat) : BufTy := match i % 128 with
  | 0 => ⟨S1048576x64, .f32⟩
  | 1 => ⟨S_, .f32⟩
  | 2 => ⟨S1048576x64, .f32⟩
  | 3 => ⟨S1048576x64, .f32⟩
  | 4 => ⟨S64x64, .f32⟩
  | 5 => ⟨S1048576x64, .f32⟩
  | 6 => ⟨S_, .f32⟩
  | 7 => ⟨S1048576x64, .f32⟩
  | 8 => ⟨S1048576x64, .f32⟩
  | 9 => ⟨S64x64, .f32⟩
  | 10 => ⟨S1048576x64, .f32⟩
  | 11 => ⟨S_, .f32⟩
  | 12 => ⟨S1048576x64, .f32⟩
  | 13 => ⟨S1048576x64, .f32⟩
  | 14 => ⟨S64x3, .f32⟩
  | 15 => ⟨S1048576x3, .f32⟩
  | 16 => ⟨S1048576, .f32⟩
  | 17 => ⟨S_, .f32⟩
  | 18 => ⟨S1048576, .f32⟩
  | 19 => ⟨S1048576, .f32⟩
  | 20 => ⟨S1048576, .f32⟩
  | 21 => ⟨S1048576x1, .f32⟩
  | 22 => ⟨S1048576x3, .f32⟩
  | 23 => ⟨S1048576x3, .f32⟩
  | 24 => ⟨S1048576, .f32⟩
  | 25 => ⟨S1048576x1, .f32⟩
  | 26 => ⟨S1048576x3, .f32⟩
  | 27 => ⟨S1048576x3, .f32⟩
  | 28 => ⟨S1048576x3, .f32⟩
  | 29 => ⟨S1048576x1, .f32⟩
  | 30 => ⟨S1048576x1, .f32⟩
  | 31 => ⟨S1048576x1, .f32⟩
  | 32 => ⟨S1048576x6, .f32⟩
  | _ => ⟨S1048576x98, .f32⟩

abbrev hbmTy (i : Nat) : BufTy := match i / 128 with
  | 0 => hbmTy0_0 i
  | 1 => hbmTy0_1 i
  | _ => ⟨S1048576x98, .f32⟩

abbrev bufTy : (tb : Table) → Fin (tcTables nBuf tb) → BufTy
  | .hbm, ⟨i, _⟩ => hbmTy i
  | _, _ => ⟨S1048576x98, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call0_cst : Ref sig .tc := ⟨.hbm, 20, rfl⟩
abbrev main_call0_v0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_cst : Ref sig .tc := ⟨.hbm, 25, rfl⟩
abbrev main_call1_v0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_call2_cst : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_call3_cst : Ref sig .tc := ⟨.hbm, 48, rfl⟩
abbrev main_call3_v0 : Ref sig .tc := ⟨.hbm, 49, rfl⟩
abbrev main_call3_v1 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_call3_v5 : Ref sig .tc := ⟨.hbm, 54, rfl⟩
abbrev main_call3_v6 : Ref sig .tc := ⟨.hbm, 55, rfl⟩
abbrev main_call3_v7 : Ref sig .tc := ⟨.hbm, 56, rfl⟩
abbrev main_call3_v8 : Ref sig .tc := ⟨.hbm, 57, rfl⟩
abbrev main_call3_v9 : Ref sig .tc := ⟨.hbm, 58, rfl⟩
abbrev main_call3_v10 : Ref sig .tc := ⟨.hbm, 59, rfl⟩
abbrev main_call3_v11 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_call4_cst : Ref sig .tc := ⟨.hbm, 66, rfl⟩
abbrev main_call4_v0 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_call5_cst : Ref sig .tc := ⟨.hbm, 71, rfl⟩
abbrev main_call5_v0 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_call6_cst : Ref sig .tc := ⟨.hbm, 76, rfl⟩
abbrev main_call6_v0 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_call7_cst : Ref sig .tc := ⟨.hbm, 83, rfl⟩
abbrev main_call7_v0 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_call8_cst : Ref sig .tc := ⟨.hbm, 88, rfl⟩
abbrev main_call8_v0 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_call9_cst : Ref sig .tc := ⟨.hbm, 95, rfl⟩
abbrev main_call9_v0 : Ref sig .tc := ⟨.hbm, 96, rfl⟩
abbrev main_call9_v1 : Ref sig .tc := ⟨.hbm, 97, rfl⟩
abbrev main_call9_v2 : Ref sig .tc := ⟨.hbm, 98, rfl⟩
abbrev main_call9_v3 : Ref sig .tc := ⟨.hbm, 99, rfl⟩
abbrev main_call9_v4 : Ref sig .tc := ⟨.hbm, 100, rfl⟩
abbrev main_call9_v5 : Ref sig .tc := ⟨.hbm, 101, rfl⟩
abbrev main_call9_v6 : Ref sig .tc := ⟨.hbm, 102, rfl⟩
abbrev main_call9_v7 : Ref sig .tc := ⟨.hbm, 103, rfl⟩
abbrev main_call9_v8 : Ref sig .tc := ⟨.hbm, 104, rfl⟩
abbrev main_call9_v9 : Ref sig .tc := ⟨.hbm, 105, rfl⟩
abbrev main_call9_v10 : Ref sig .tc := ⟨.hbm, 106, rfl⟩
abbrev main_call9_v11 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_call10_cst : Ref sig .tc := ⟨.hbm, 111, rfl⟩
abbrev main_call10_v0 : Ref sig .tc := ⟨.hbm, 112, rfl⟩
abbrev main_call10_v1 : Ref sig .tc := ⟨.hbm, 113, rfl⟩
abbrev main_call10_v2 : Ref sig .tc := ⟨.hbm, 114, rfl⟩
abbrev main_call10_v3 : Ref sig .tc := ⟨.hbm, 115, rfl⟩
abbrev main_call10_v4 : Ref sig .tc := ⟨.hbm, 116, rfl⟩
abbrev main_call10_v5 : Ref sig .tc := ⟨.hbm, 117, rfl⟩
abbrev main_call10_v6 : Ref sig .tc := ⟨.hbm, 118, rfl⟩
abbrev main_call10_v7 : Ref sig .tc := ⟨.hbm, 119, rfl⟩
abbrev main_call10_v8 : Ref sig .tc := ⟨.hbm, 120, rfl⟩
abbrev main_call10_v9 : Ref sig .tc := ⟨.hbm, 121, rfl⟩
abbrev main_call10_v10 : Ref sig .tc := ⟨.hbm, 122, rfl⟩
abbrev main_call10_v11 : Ref sig .tc := ⟨.hbm, 123, rfl⟩
abbrev main_v43 : Ref sig .tc := ⟨.hbm, 124, rfl⟩
abbrev main_v44 : Ref sig .tc := ⟨.hbm, 125, rfl⟩
abbrev main_v45 : Ref sig .tc := ⟨.hbm, 126, rfl⟩
abbrev main_v46 : Ref sig .tc := ⟨.hbm, 127, rfl⟩
abbrev main_v47 : Ref sig .tc := ⟨.hbm, 128, rfl⟩
abbrev main_call11_cst : Ref sig .tc := ⟨.hbm, 129, rfl⟩
abbrev main_call11_v0 : Ref sig .tc := ⟨.hbm, 130, rfl⟩
abbrev main_v48 : Ref sig .tc := ⟨.hbm, 131, rfl⟩
abbrev main_v49 : Ref sig .tc := ⟨.hbm, 132, rfl⟩
abbrev main_v50 : Ref sig .tc := ⟨.hbm, 133, rfl⟩
abbrev main_call12_cst : Ref sig .tc := ⟨.hbm, 134, rfl⟩
abbrev main_call12_v0 : Ref sig .tc := ⟨.hbm, 135, rfl⟩
abbrev main_v51 : Ref sig .tc := ⟨.hbm, 136, rfl⟩
abbrev main_v52 : Ref sig .tc := ⟨.hbm, 137, rfl⟩
abbrev main_v53 : Ref sig .tc := ⟨.hbm, 138, rfl⟩
abbrev main_call13_cst : Ref sig .tc := ⟨.hbm, 139, rfl⟩
abbrev main_call13_v0 : Ref sig .tc := ⟨.hbm, 140, rfl⟩
abbrev main_v54 : Ref sig .tc := ⟨.hbm, 141, rfl⟩
abbrev main_v55 : Ref sig .tc := ⟨.hbm, 142, rfl⟩
abbrev main_v56 : Ref sig .tc := ⟨.hbm, 143, rfl⟩
abbrev main_v57 : Ref sig .tc := ⟨.hbm, 144, rfl⟩
abbrev main_cst : Ref sig .tc := ⟨.hbm, 145, rfl⟩
abbrev main_v58 : Ref sig .tc := ⟨.hbm, 146, rfl⟩
abbrev main_v59 : Ref sig .tc := ⟨.hbm, 147, rfl⟩
abbrev main_v60 : Ref sig .tc := ⟨.hbm, 148, rfl⟩
abbrev main_v61 : Ref sig .tc := ⟨.hbm, 149, rfl⟩
abbrev main_v62 : Ref sig .tc := ⟨.hbm, 150, rfl⟩
abbrev main_v63 : Ref sig .tc := ⟨.hbm, 151, rfl⟩
abbrev main_v64 : Ref sig .tc := ⟨.hbm, 152, rfl⟩
abbrev main_v65 : Ref sig .tc := ⟨.hbm, 153, rfl⟩
abbrev main_v66 : Ref sig .tc := ⟨.hbm, 154, rfl⟩
abbrev main_v67 : Ref sig .tc := ⟨.hbm, 155, rfl⟩
abbrev main_v68 : Ref sig .tc := ⟨.hbm, 156, rfl⟩
abbrev main_v69 : Ref sig .tc := ⟨.hbm, 157, rfl⟩
abbrev main_v70 : Ref sig .tc := ⟨.hbm, 158, rfl⟩
abbrev main_v71 : Ref sig .tc := ⟨.hbm, 159, rfl⟩
abbrev main_v72 : Ref sig .tc := ⟨.hbm, 160, rfl⟩

abbrev nD : Nat := 1
abbrev τ : Topo := Topo.v7x

variable {F : FTy → Type} [FloatOps F]

class Facts₀ : Prop where
  slices_S1048576x98_S1048576x71_0_0 : S1048576x98.Slices ![0, 0] S1048576x71
  slices_S1048576x98_S1048576x27_0_71 : S1048576x98.Slices ![0, 71] S1048576x27
  slices_S1048576x71_S1048576x63_0_0 : S1048576x71.Slices ![0, 0] S1048576x63
  transposes_S64x63_S63x64_1_0 : S64x63.Transposes [1, 0] S63x64
  bcast_S_S1048576x64 : S_.BroadcastsInDim S1048576x64 (![] : Fin 0 → Fin S1048576x64.rank)
  transposes_S64x64_S64x64_1_0 : S64x64.Transposes [1, 0] S64x64
  transposes_S17x64_S64x17_1_0 : S17x64.Transposes [1, 0] S64x17
  slices_S1048576x17_S1048576x1_0_0 : S1048576x17.Slices ![0, 0] S1048576x1
  shapeCasts_S1048576x1_S1048576 : S1048576x1.ShapeCasts S1048576
  bcast_S_S1048576 : S_.BroadcastsInDim S1048576 (![] : Fin 0 → Fin S1048576.rank)
  slices_S1048576x17_S1048576x1_0_1 : S1048576x17.Slices ![0, 1] S1048576x1
  slices_S1048576x17_S1048576x15_0_2 : S1048576x17.Slices ![0, 2] S1048576x15
  concatenates_S1048576x27_S1048576x15_S1048576x42_d1 : Shape.Concatenates [S1048576x27, S1048576x15] S1048576x42 1
  transposes_S64x42_S42x64_1_0 : S64x42.Transposes [1, 0] S42x64
  transposes_S3x64_S64x3_1_0 : S3x64.Transposes [1, 0] S64x3
  transposes_S64x71_S71x64_1_0 : S64x71.Transposes [1, 0] S71x64
  bcast_S1048576_S1048576x1_0 : S1048576.BroadcastsInDim S1048576x1 (![0] : Fin 1 → Fin S1048576x1.rank)
  bcast_S1048576x1_S1048576x3_0_1 : S1048576x1.BroadcastsInDim S1048576x3 (![0, 1] : Fin 2 → Fin S1048576x3.rank)
  concatenates_S1048576x3_S1048576x1_S1048576x1_S1048576x1_S1048576x6_d1 : Shape.Concatenates [S1048576x3, S1048576x1, S1048576x1, S1048576x1] S1048576x6 1
  dot_S1048576x63_S63x64_S1048576x64_1_0_0_1_n_n_wf : DotDims.WF S1048576x63 S63x64 S1048576x64 [1] [0] [0] [1] [] []
  dot_S1048576x64_S64x64_S1048576x64_1_0_0_1_n_n_wf : DotDims.WF S1048576x64 S64x64 S1048576x64 [1] [0] [0] [1] [] []
  dot_S1048576x64_S64x17_S1048576x17_1_0_0_1_n_n_wf : DotDims.WF S1048576x64 S64x17 S1048576x17 [1] [0] [0] [1] [] []
  dot_S1048576x42_S42x64_S1048576x64_1_0_0_1_n_n_wf : DotDims.WF S1048576x42 S42x64 S1048576x64 [1] [0] [0] [1] [] []
  dot_S1048576x64_S64x3_S1048576x3_1_0_0_1_n_n_wf : DotDims.WF S1048576x64 S64x3 S1048576x3 [1] [0] [0] [1] [] []
  dot_S1048576x71_S71x64_S1048576x64_1_0_0_1_n_n_wf : DotDims.WF S1048576x71 S71x64 S1048576x64 [1] [0] [0] [1] [] []

variable [Facts₀]

def dot_S1048576x63_S63x64_S1048576x64_1_0_0_1_n_n : DotDims S1048576x63 S63x64 S1048576x64 where
  lhsContracting := [1]
  rhsContracting := [0]
  lhsNonContracting := [0]
  rhsNonContracting := [1]
  lhsBatch := []
  rhsBatch := []
  wf := dot_S1048576x63_S63x64_S1048576x64_1_0_0_1_n_n_wf
def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf
def dot_S1048576x64_S64x17_S1048576x17_1_0_0_1_n_n : DotDims S1048576x64 S64x17 S1048576x17 where
  lhsContracting := [1]
  rhsContracting := [0]
  lhsNonContracting := [0]
  rhsNonContracting := [1]
  lhsBatch := []
  rhsBatch := []
  wf := dot_S1048576x64_S64x17_S1048576x17_1_0_0_1_n_n_wf
def dot_S1048576x42_S42x64_S1048576x64_1_0_0_1_n_n : DotDims S1048576x42 S42x64 S1048576x64 where
  lhsContracting := [1]
  rhsContracting := [0]
  lhsNonContracting := [0]
  rhsNonContracting := [1]
  lhsBatch := []
  rhsBatch := []
  wf := dot_S1048576x42_S42x64_S1048576x64_1_0_0_1_n_n_wf
def dot_S1048576x64_S64x3_S1048576x3_1_0_0_1_n_n : DotDims S1048576x64 S64x3 S1048576x3 where
  lhsContracting := [1]
  rhsContracting := [0]
  lhsNonContracting := [0]
  rhsNonContracting := [1]
  lhsBatch := []
  rhsBatch := []
  wf := dot_S1048576x64_S64x3_S1048576x3_1_0_0_1_n_n_wf
def dot_S1048576x71_S71x64_S1048576x64_1_0_0_1_n_n : DotDims S1048576x71 S71x64 S1048576x64 where
  lhsContracting := [1]
  rhsContracting := [0]
  lhsNonContracting := [0]
  rhsNonContracting := [1]
  lhsBatch := []
  rhsBatch := []
  wf := dot_S1048576x71_S71x64_S1048576x64_1_0_0_1_n_n_wf

class Facts : Prop extends Facts₀ where

variable [Facts]
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.RowSpec.lean ====
/-
  The network one row at a time.

  Both programs map each row of the input array (98 numbers: 63 position features, 8 time features, 27 view
  features) to a row of 6 numbers, through two small networks ("background", fed the 63 position features, and
  "foreground", fed all 71 position and time features). Each network is a density branch (three linear layers with
  a rectifier between them, 17 outputs) and a colour branch (four linear layers, fed the 27 view features and
  outputs 2..16 of the density branch). Output 0 of a density branch goes through the softplus to give a density,
  output 1 to give an uncertainty. The result row holds the density-weighted mix of the two colours, the total
  density, the foreground uncertainty and the foreground density.

  Weights are taken already transposed: `T (k, q)` multiplies input `k` into output `q`.
-/
import Idealize.ShloMosaic.PureOps.Ideal.Laws
import Idealize.ShloMosaic.Lib.ValueIdx

noncomputable section

namespace Cert.Nerf

open Idealize.ShloMosaic Idealize.ShloMosaic.ValueIdx

/-- A row of `n` extended reals. -/
abbrev Row (n : Nat) : Type := Fin n → EReal
/-- An `R × n` array of extended reals. -/
abbrev Arr (R n : Nat) : Type := (⟨2, ![R, n]⟩ : Shape).Idx → EReal
/-- A vector of `R` extended reals. -/
abbrev Col (R : Nat) : Type := (⟨1, ![R]⟩ : Shape).Idx → EReal

/-- Row `p` of an array. -/
def rowOf {R n : Nat} (A : Arr R n) (p : Fin R) : Row n := fun k => A (ix2 p k)

/-- A linear layer: output `q` is the sum over `k` of input `k` times the transposed weight at `(k, q)`. -/
def rlin {K N : Nat} (T : Arr K N) (v : Row K) : Row N := fun q => ∑ k : Fin K, v k * T (ix2 k q)

/-- The rectifier, entry by entry. -/
def rrelu {N : Nat} (v : Row N) : Row N := fun q => max (v q) 0

/-- The softplus `log (1 + e^a)` in its stable form `max a 0 + log1p (e^(-|a|))`. -/
def sp (a : EReal) : EReal := max a 0 + Ideal.log1p (Ideal.exp (-(max a (-a))))

/-- Entries `o .. o + m - 1` of a row. -/
def rslice {n : Nat} (o m : Nat) (hle : o + m ≤ n) (v : Row n) : Row m :=
  fun j => v ⟨o + j.val, Nat.lt_of_lt_of_le (Nat.add_lt_add_left j.isLt o) hle⟩

/-- Two rows side by side. -/
def rcat {a b n : Nat} (u : Row a) (v : Row b) : Row n :=
  fun j => if h : j.val < a then u ⟨j.val, h⟩ else if h2 : j.val - a < b then v ⟨j.val - a, h2⟩ else 0

/-- The density branch: three linear layers, a rectifier after the first two. -/
def sigNet {K : Nat} (T0 : Arr K 64) (T1 : Arr 64 64) (T2 : Arr 64 17) (v : Row K) : Row 17 :=
  rlin T2 (rrelu (rlin T1 (rrelu (rlin T0 v))))

/-- The colour branch: four linear layers, a rectifier after the first three. -/
def colNet (C0 : Arr 42 64) (C1 C2 : Arr 64 64) (C3 : Arr 64 3) (v : Row 42) : Row 3 :=
  rlin C3 (rrelu (rlin C2 (rrelu (rlin C1 (rrelu (rlin C0 v))))))

/-- The colour branch's input: the view features, then outputs 2..16 of the density branch. -/
def colIn (views : Row 27) (h : Row 17) : Row 42 := rcat views (rslice 2 15 (by decide) h)

/-- The fourteen transposed weight arrays. -/
structure Wts where
  bs0 : Arr 63 64
  bs1 : Arr 64 64
  bs2 : Arr 64 17
  bc0 : Arr 42 64
  bc1 : Arr 64 64
  bc2 : Arr 64 64
  bc3 : Arr 64 3
  fs0 : Arr 71 64
  fs1 : Arr 64 64
  fs2 : Arr 64 17
  fc0 : Arr 42 64
  fc1 : Arr 64 64
  fc2 : Arr 64 64
  fc3 : Arr 64 3

/-- The small constant added to the total density, as its binary value. -/
def eps : EReal := Ideal.ofBits .f32 0x3089705F#32

/-- The background density branch's 17 outputs. -/
def bgH (w : Wts) (x : Row 98) : Row 17 := sigNet w.bs0 w.bs1 w.bs2 (rslice 0 63 (by decide) x)
/-- The foreground density branch's 17 outputs. -/
def fgH (w : Wts) (x : Row 98) : Row 17 := sigNet w.fs0 w.fs1 w.fs2 (rslice 0 71 (by decide) x)
/-- The view features. -/
def viewsOf (x : Row 98) : Row 27 := rslice 71 27 (by decide) x
/-- The background colour. -/
def bgC (w : Wts) (x : Row 98) : Row 3 := colNet w.bc0 w.bc1 w.bc2 w.bc3 (colIn (viewsOf x) (bgH w x))
/-- The foreground colour. -/
def fgC (w : Wts) (x : Row 98) : Row 3 := colNet w.fc0 w.fc1 w.fc2 w.fc3 (colIn (viewsOf x) (fgH w x))
/-- The background density. -/
def bgS (w : Wts) (x : Row 98) : EReal := sp (bgH w x 0)
/-- The foreground density. -/
def fgS (w : Wts) (x : Row 98) : EReal := sp (fgH w x 0)
/-- The foreground uncertainty. -/
def fgU (w : Wts) (x : Row 98) : EReal := sp (fgH w x 1)
/-- The total density. -/
def tot (w : Wts) (x : Row 98) : EReal := bgS w x + fgS w x + eps
/-- The mixed colour. -/
def mix (w : Wts) (x : Row 98) : Row 3 :=
  fun j => Ideal.div (bgS w x) (tot w x) * bgC w x j + Ideal.div (fgS w x) (tot w x) * fgC w x j

/-- The result row: mixed colour, total density, foreground uncertainty, foreground density. -/
def rowOut (w : Wts) (x : Row 98) : Row 6 :=
  fun j => if h : j.val < 3 then mix w x ⟨j.val, h⟩ else if j.val = 3 then tot w x else if j.val = 4 then fgU w x else fgS w x

/-- The result array: row `p` is `rowOut` of row `p` of the input. -/
def outArr {R : Nat} (w : Wts) (X : Arr R 98) : Arr R 6 := fun i => rowOut w (rowOf X (i 0)) (i 1)

theorem outArr_apply {R : Nat} (w : Wts) (X : Arr R 98) (p : Fin R) (q : Fin 6) :
    outArr w X (ix2 p q) = rowOut w (rowOf X p) q := rfl

end Cert.Nerf

end
-- ==== Proof.RowOps.lean ====
/-
  Arrays whose rows are a fixed function of the rows of a base array, and how the array operations of the two
  programs act on them.

  `RowFn A X f` says: row `p` of `A` is `f` of row `p` of `X`, for every `p`. A slice of columns, a matrix product
  with a weight array, an entrywise operation and a concatenation of columns each take such arrays to such an
  array, with the matching operation on rows (RowSpec). The number of rows is arbitrary, so the same lemmas serve a
  block of rows and the whole array.
-/
import Idealize.ShloMosaic.PureOps.Ideal.Laws
import Idealize.ShloMosaic.Lib.ValueIdx
import Idealize.ShloMosaic.Lib.ValueLayout
import Idealize.ShloMosaic.Lib.Pipeline.Value
import proofs.«116642_j48120813584957_1_alg».proof.Proof.LibMatmul
import proofs.«116642_j48120813584957_1_alg».proof.Proof.RowSpec

noncomputable section

namespace Cert.Nerf

open Idealize.ShloMosaic Idealize.ShloMosaic.ValueIdx

/-- Row `p` of `A` is `f` of row `p` of `X`. -/
def RowFn {R K n : Nat} (A : Arr R n) (X : Arr R K) (f : Row K → Row n) : Prop :=
  ∀ (p : Fin R) (q : Fin n), A (ix2 p q) = f (rowOf X p) q

/-- Entry `p` of the vector `A` is `f` of row `p` of `X`. -/
def ColFn {R K : Nat} (A : Col R) (X : Arr R K) (f : Row K → EReal) : Prop :=
  ∀ p : Fin R, A (ix1 p) = f (rowOf X p)

variable {R K n : Nat}

theorem RowFn.self (X : Arr R K) : RowFn X X (fun r => r) := fun _ _ => rfl

/-- An array that agrees entry by entry with one of known rows has those rows. -/
theorem RowFn.of_eq {A B : Arr R n} {X : Arr R K} {f : Row K → Row n} (hA : RowFn A X f) (h : B = A) : RowFn B X f := h ▸ hA

/-- The same rows under a row function that agrees. -/
theorem RowFn.congr {A : Arr R n} {X : Arr R K} {f g : Row K → Row n} (hA : RowFn A X f) (h : ∀ r q, f r q = g r q) :
    RowFn A X g := fun p q => (hA p q).trans (h _ q)

/-- A slice of columns. -/
theorem RowFn.slice {m : Nat} {A : Arr R n} {X : Arr R K} {f : Row K → Row n} (hA : RowFn A X f) (o : Nat)
    (h : (⟨2, ![R, n]⟩ : Shape).Slices ![0, o] ⟨2, ![R, m]⟩) (hle : o + m ≤ n) :
    RowFn (extractStridedSlice ⟨2, ![R, m]⟩ ![0, o] A h) X (fun r => rslice o m hle (f r)) :=
  fun p j => (slice2_axis1_apply o A h p j ⟨o + j.val, Nat.lt_of_lt_of_le (Nat.add_lt_add_left j.isLt o) hle⟩ rfl).trans (hA p _)

/-- The kernel's matrix product into a zero accumulator, with a weight array. -/
theorem RowFn.matmul {N : Nat} {φ₁ φ₂ : FTy} {A : FVec Ideal ⟨2, ![R, n]⟩ φ₁} {X : Arr R K} {f : Row K → Row n}
    (hA : RowFn (R := R) (n := n) A X f) (T : FVec Ideal ⟨2, ![n, N]⟩ φ₂) (prec : Option ContractPrecision) :
    RowFn (R := R) (n := N) (FloatOps.matmul (DotDims.plain R n N) prec A T (constant ⟨2, ![R, N]⟩ .f32 0x00000000#32)) X
      (fun r => rlin (K := n) (N := N) T (f r)) :=
  fun p q => (Cert.Matmul.matmul_plain_apply prec A T p q).trans
    (Finset.sum_congr rfl fun k _ => congrArg (· * T (ix2 k q)) (hA p k))

/-- The host's dot_general with a weight array. -/
theorem RowFn.dotGeneral {N : Nat} {φ₁ φ₂ : FTy} {A : FVec Ideal ⟨2, ![R, n]⟩ φ₁} {X : Arr R K} {f : Row K → Row n}
    (hA : RowFn (R := R) (n := n) A X f) (T : FVec Ideal ⟨2, ![n, N]⟩ φ₂) (prec : Option ContractPrecision) (sched : HostSchedule) :
    RowFn (R := R) (n := N) (FloatOps.dotGeneral (DotDims.plain R n N) prec sched A T) X
      (fun r => rlin (K := n) (N := N) T (f r)) :=
  fun p q => (Cert.Matmul.dotGeneral_plain_apply prec sched A T p q).trans
    (Finset.sum_congr rfl fun k _ => congrArg (· * T (ix2 k q)) (hA p k))

/-- The rectifier: the entrywise maximum with an array that is zero everywhere. -/
theorem RowFn.relu {φ : FTy} {A : FVec Ideal ⟨2, ![R, n]⟩ φ} {X : Arr R K} {f : Row K → Row n}
    (hA : RowFn (R := R) (n := n) A X f) (Z : FVec Ideal ⟨2, ![R, n]⟩ φ) (hZ : ∀ i, Z i = 0) :
    RowFn (R := R) (n := n) (maximumf A Z) X (fun r => rrelu (f r)) :=
  fun p q => by
    show max (A (ix2 p q)) (Z (ix2 p q)) = max (f (rowOf X p) q) 0
    rw [hA p q, hZ]

/-- Two arrays side by side. -/
theorem RowFn.cat {a b : Nat} {A : Arr R a} {B : Arr R b} {X : Arr R K} {f : Row K → Row a} {g : Row K → Row b}
    (hA : RowFn A X f) (hB : RowFn B X g)
    (h : Shape.Concatenates [(⟨2, ![R, a]⟩ : Shape), ⟨2, ![R, b]⟩] ⟨2, ![R, n]⟩ 1) (hn : n = a + b) :
    RowFn (concatenate ⟨2, ![R, n]⟩ 1 [⟨⟨2, ![R, a]⟩, A⟩, ⟨⟨2, ![R, b]⟩, B⟩] h) X (fun r => rcat (f r) (g r)) :=
  fun p j => by
    by_cases hj : j.val < a
    · refine (concatenate_pair_apply_left (1 : Fin 2) A B h (ix2 p j) rfl (ix2 p ⟨j.val, hj⟩) (fun c => ?_)).trans ?_
      · match c with
        | ⟨0, _⟩ => rfl
        | ⟨1, _⟩ => rfl
      · rw [hA p ⟨j.val, hj⟩]; dsimp only [rcat]; rw [dif_pos hj]
    · have hj2 : j.val - a < b := by have := j.isLt; omega
      refine (concatenate_pair_apply_right (1 : Fin 2) A B h (ix2 p j) rfl rfl (ix2 p ⟨j.val - a, hj2⟩) (fun c hc => ?_) ?_).trans ?_
      · match c with
        | ⟨0, _⟩ => rfl
        | ⟨1, _⟩ => exact absurd rfl hc
      · show (j.val - a) + a = j.val
        omega
      · rw [hB p ⟨j.val - a, hj2⟩]; dsimp only [rcat]; rw [dif_neg hj, dif_pos hj2]

/-- A change of float format is the identity on extended reals. -/
theorem RowFn.truncf {φ ψ : FTy} {A : FVec Ideal ⟨2, ![R, n]⟩ φ} {X : Arr R K} {f : Row K → Row n}
    (hA : RowFn (R := R) (n := n) A X f) (h : ψ.bits < φ.bits) : RowFn (R := R) (n := n) (truncf ψ A h) X f := hA

/-- An entrywise function of an array. -/
theorem RowFn.map {A : Arr R n} {X : Arr R K} {f : Row K → Row n} (hA : RowFn A X f) (B : Arr R n) (u : EReal → EReal)
    (hB : ∀ i, B i = u (A i)) : RowFn B X (fun r q => u (f r q)) :=
  fun p q => (hB _).trans (congrArg u (hA p q))

/-- An entrywise function of two arrays. -/
theorem RowFn.map₂ {A B : Arr R n} {X : Arr R K} {f g : Row K → Row n} (hA : RowFn A X f) (hB : RowFn B X g) (C : Arr R n)
    (u : EReal → EReal → EReal) (hC : ∀ i, C i = u (A i) (B i)) : RowFn C X (fun r q => u (f r q) (g r q)) :=
  fun p q => by rw [hC, hA p q, hB p q]

/-- An entrywise function of a vector. -/
theorem ColFn.map {A : Col R} {X : Arr R K} {f : Row K → EReal} (hA : ColFn A X f) (B : Col R) (u : EReal → EReal)
    (hB : ∀ i, B i = u (A i)) : ColFn B X (fun r => u (f r)) :=
  fun p => (hB _).trans (congrArg u (hA p))

/-- An entrywise function of two vectors. -/
theorem ColFn.map₂ {A B : Col R} {X : Arr R K} {f g : Row K → EReal} (hA : ColFn A X f) (hB : ColFn B X g) (C : Col R)
    (u : EReal → EReal → EReal) (hC : ∀ i, C i = u (A i) (B i)) : ColFn C X (fun r => u (f r) (g r)) :=
  fun p => by rw [hC, hA p, hB p]

/-- A one-column array reshaped to a vector. -/
theorem ColFn.of_reshape {A : Arr R 1} {X : Arr R K} {f : Row K → Row 1} (hA : RowFn A X f)
    (h : (⟨2, ![R, 1]⟩ : Shape).ShapeCasts ⟨1, ![R]⟩) : ColFn (shapeCast ⟨1, ![R]⟩ A h) X (fun r => f r 0) :=
  fun p => (shapeCast_apply A h (ix1 p) (ix2 p 0) (by
    rw [Shape.rowMajor_val_two, Shape.rowMajor_val_one]
    show p.val * 1 + 0 = p.val
    omega)).trans (hA p 0)

/-- A vector as a one-column array. -/
theorem RowFn.of_col {A : Col R} {X : Arr R K} {f : Row K → EReal} (hA : ColFn A X f)
    (h : (⟨1, ![R]⟩ : Shape).BroadcastsInDim ⟨2, ![R, 1]⟩ ![0]) (hR : R ≠ 1) :
    RowFn (broadcastInDim ⟨2, ![R, 1]⟩ ![0] h A) X (fun r _ => f r) :=
  fun p q => (broadcastInDim_apply ![0] h A (ix2 p q) (ix1 p) (fun a => by
    match a with
    | ⟨0, _⟩ => show p.val = if R = 1 then 0 else p.val; rw [if_neg hR])).trans (hA p)

/-- A one-column array repeated along its columns, the host's way. -/
theorem RowFn.bcastCols {A : Arr R 1} {X : Arr R K} {f : Row K → Row 1} (hA : RowFn A X f)
    (h : (⟨2, ![R, 1]⟩ : Shape).BroadcastsInDim ⟨2, ![R, n]⟩ ![0, 1]) (hR : R ≠ 1) :
    RowFn (broadcastInDim ⟨2, ![R, n]⟩ ![0, 1] h A) X (fun r _ => f r 0) :=
  fun p q => (broadcastInDim_apply ![0, 1] h A (ix2 p q) (ix2 p 0) (fun a => by
    match a with
    | ⟨0, _⟩ => show p.val = if R = 1 then 0 else p.val; rw [if_neg hR]
    | ⟨1, _⟩ => show (0 : Nat) = if (1 : Nat) = 1 then 0 else q.val; rw [if_pos rfl])).trans (hA p 0)

/-- A one-column array repeated along its columns, the kernel's way. -/
theorem RowFn.bcastTo {A : Arr R 1} {X : Arr R K} {f : Row K → Row 1} (hA : RowFn A X f)
    (h : (⟨2, ![R, 1]⟩ : Shape).Broadcasts ⟨2, ![R, n]⟩) (hR : R ≠ 1) :
    RowFn (broadcastTo ⟨2, ![R, n]⟩ A h) X (fun r _ => f r 0) :=
  fun p q => (broadcastTo_apply A h (ix2 p q) (ix2 p 0) (fun a => by
    match a with
    | ⟨0, _⟩ => show p.val = if R = 1 then 0 else p.val; rw [if_neg hR]
    | ⟨1, _⟩ => show (0 : Nat) = if (1 : Nat) = 1 then 0 else q.val; rw [if_pos rfl])).trans (hA p 0)

/-- A three-column array and three one-column arrays side by side. -/
theorem RowFn.cat4 {A : Arr R 3} {B C D : Arr R 1} {X : Arr R K} {f : Row K → Row 3} {g h k : Row K → Row 1}
    (hA : RowFn A X f) (hB : RowFn B X g) (hC : RowFn C X h) (hD : RowFn D X k)
    (hc : Shape.Concatenates [(⟨2, ![R, 3]⟩ : Shape), ⟨2, ![R, 1]⟩, ⟨2, ![R, 1]⟩, ⟨2, ![R, 1]⟩] ⟨2, ![R, 6]⟩ 1) :
    RowFn (concatenate ⟨2, ![R, 6]⟩ 1 [⟨⟨2, ![R, 3]⟩, A⟩, ⟨⟨2, ![R, 1]⟩, B⟩, ⟨⟨2, ![R, 1]⟩, C⟩, ⟨⟨2, ![R, 1]⟩, D⟩] hc) X
      (fun r j => if hj : j.val < 3 then f r ⟨j.val, hj⟩ else if j.val = 3 then g r 0 else if j.val = 4 then h r 0 else k r 0) :=
  fun p j => by
    have side : ∀ {s : Nat} (i : Fin s) (c : Fin 2), c.cast (rfl : (⟨2, ![R, s]⟩ : Shape).rank = 2) ≠ (1 : Fin 2) →
        ((ix2 p i : (⟨2, ![R, s]⟩ : Shape).Idx) c).val = ((ix2 p j : (⟨2, ![R, 6]⟩ : Shape).Idx) (c.cast rfl)).val := by
      intro s i c hc'
      match c with
      | ⟨0, _⟩ => rfl
      | ⟨1, _⟩ => exact absurd rfl hc'
    match j with
    | ⟨0, hj⟩ =>
      exact (concatenate_apply_piece (t := ⟨2, ![R, 6]⟩) (1 : Fin 2) [⟨⟨2, ![R, 3]⟩, A⟩, ⟨⟨2, ![R, 1]⟩, B⟩, ⟨⟨2, ![R, 1]⟩, C⟩, ⟨⟨2, ![R, 1]⟩, D⟩] hc (ix2 p ⟨0, hj⟩) 0 (by simp) _ A rfl rfl 0 rfl (ix2 p ⟨0, by decide⟩) (side _) rfl).trans (hA p _)
    | ⟨1, hj⟩ =>
      exact (concatenate_apply_piece (t := ⟨2, ![R, 6]⟩) (1 : Fin 2) [⟨⟨2, ![R, 3]⟩, A⟩, ⟨⟨2, ![R, 1]⟩, B⟩, ⟨⟨2, ![R, 1]⟩, C⟩, ⟨⟨2, ![R, 1]⟩, D⟩] hc (ix2 p ⟨1, hj⟩) 0 (by simp) _ A rfl rfl 0 rfl (ix2 p ⟨1, by decide⟩) (side _) rfl).trans (hA p _)
    | ⟨2, hj⟩ =>
      exact (concatenate_apply_piece (t := ⟨2, ![R, 6]⟩) (1 : Fin 2) [⟨⟨2, ![R, 3]⟩, A⟩, ⟨⟨2, ![R, 1]⟩, B⟩, ⟨⟨2, ![R, 1]⟩, C⟩, ⟨⟨2, ![R, 1]⟩, D⟩] hc (ix2 p ⟨2, hj⟩) 0 (by simp) _ A rfl rfl 0 rfl (ix2 p ⟨2, by decide⟩) (side _) rfl).trans (hA p _)
    | ⟨3, hj⟩ =>
      exact (concatenate_apply_piece (t := ⟨2, ![R, 6]⟩) (1 : Fin 2) [⟨⟨2, ![R, 3]⟩, A⟩, ⟨⟨2, ![R, 1]⟩, B⟩, ⟨⟨2, ![R, 1]⟩, C⟩, ⟨⟨2, ![R, 1]⟩, D⟩] hc (ix2 p ⟨3, hj⟩) 1 (by simp) _ B rfl rfl 3 rfl (ix2 p 0) (side _) rfl).trans (hB p _)
    | ⟨4, hj⟩ =>
      exact (concatenate_apply_piece (t := ⟨2, ![R, 6]⟩) (1 : Fin 2) [⟨⟨2, ![R, 3]⟩, A⟩, ⟨⟨2, ![R, 1]⟩, B⟩, ⟨⟨2, ![R, 1]⟩, C⟩, ⟨⟨2, ![R, 1]⟩, D⟩] hc (ix2 p ⟨4, hj⟩) 2 (by simp) _ C rfl rfl 4 rfl (ix2 p 0) (side _) rfl).trans (hC p _)
    | ⟨5, hj⟩ =>
      exact (concatenate_apply_piece (t := ⟨2, ![R, 6]⟩) (1 : Fin 2) [⟨⟨2, ![R, 3]⟩, A⟩, ⟨⟨2, ![R, 1]⟩, B⟩, ⟨⟨2, ![R, 1]⟩, C⟩, ⟨⟨2, ![R, 1]⟩, D⟩] hc (ix2 p ⟨5, hj⟩) 3 (by simp) _ D rfl rfl 5 rfl (ix2 p 0) (side _) rfl).trans (hD p _)

/-! ## The softplus -/

/-- The not-equal test of a number with itself never fires. -/
theorem cmp_self (pr : CmpFPredicate) (hp : pr = .one ∨ pr = .une) (a : EReal) : Ideal.cmp pr a a = 0#1 := by
  rcases hp with rfl | rfl <;> simp [Ideal.cmp]

/-- The stable softplus as both programs spell it, with its not-a-number guard (dead on the extended reals) and
    its zero constants: `select (d ≠ d) (a + 0) (max a 0 + log1p (exp (-|d|)))` for `d = a - 0`. -/
theorem sp_guarded (pr : CmpFPredicate) (hp : pr = .one ∨ pr = .une) (a nd : EReal) (hnd : nd = -(max (a - 0) (-(a - 0)))) :
    Scalar.select (Ideal.cmp pr (a - 0) (a - 0)) (a + 0) (max a 0 + Ideal.log1p (Ideal.exp nd)) = sp a := by
  rw [cmp_self pr hp, select_zero, hnd]
  simp only [sp, sub_zero]

end Cert.Nerf

end
-- ==== Proof.KernelRows.lean ====
/-
  The kernel's block, row by row.

  At one grid point the kernel loads a block of 16384 rows of the input and the fourteen transposed weight arrays
  whole, and stores one block of 16384 result rows. Each value the body computes on the way is an array whose rows
  are a fixed function of the rows of the input block; the lemmas below name that function for every computed
  value, and the last says the stored block's rows are `rowOut` of the input block's rows.
-/
import proofs.«116642_j48120813584957_1_alg».proof.Proof.Gen.KernelIdeal.Frame
import proofs.«116642_j48120813584957_1_alg».proof.Proof.RowOps

noncomputable section

namespace Cert.KernelIdeal.Hand

open Idealize.ShloMosaic Idealize.ShloMosaic.ValueIdx Cert.KernelIdeal Cert.KernelIdeal.Gen Cert.Nerf

/-- The f32 zero, repeated, is zero everywhere. -/
theorem zeroB {s : Shape} (i : s.Idx) : broadcast s (Scalar.ofBits (F := Ideal) .f32 0x00000000#32) i = 0 :=
  Ideal.ofBits_zero_f32

/-- The kernel's softplus of an array, entry by entry: the guard never fires and the zero constants drop out. -/
theorem softplus_apply {s : Shape} (A : FVec Ideal s .f32) (z z' : EReal) (hz : z = 0) (hz' : z' = 0) (i : s.Idx) :
    select (cmpf .one (subf A (broadcast s z)) (subf A (broadcast s z))) (addf A (broadcast s z))
      (addf (maximumf A (broadcast s z)) (log1p (exp (subf (broadcast s z') (absf (subf A (broadcast s z))))))) i = sp (A i) := by
  subst hz hz'
  exact sp_guarded .one (Or.inl rfl) (A i) _ (zero_sub _)

variable (v0 : Vec Ideal S16384x98 .f32)

/-- The position and time features. -/
theorem pts_rows : RowFn (R := 16384) (k0_pay2 (F := Ideal) v0) v0 (fun x => rslice 0 71 (by decide) x) := by
  unfold k0_pay2
  exact RowFn.slice (RowFn.self v0) 0 _ _

/-- The view features. -/
theorem views_rows : RowFn (R := 16384) (k0_pay3 (F := Ideal) v0) v0 (fun x => viewsOf x) := by
  unfold k0_pay3 viewsOf
  refine RowFn.truncf ?_ _
  exact RowFn.slice (RowFn.self v0) 71 _ _

variable (v6 : Vec Ideal S63x64 .bf16) (v12 : Vec Ideal S64x64 .bf16) (v18 : Vec Ideal S64x17 .bf16)

/-- The background density branch. -/
theorem bgH_rows :
    RowFn (R := 16384) (k0_pay4 (F := Ideal) v0 v6 v12 v18) v0 (fun x => sigNet v6 v12 v18 (rslice 0 63 (by decide) x)) := by
  unfold k0_pay4 sigNet
  simp only [shapeCast_self]
  refine RowFn.matmul ?_ _ none
  refine RowFn.truncf ?_ _
  refine RowFn.relu ?_ _ zeroB
  refine RowFn.matmul ?_ _ none
  refine RowFn.truncf ?_ _
  refine RowFn.relu ?_ _ zeroB
  refine RowFn.matmul ?_ _ none
  refine RowFn.truncf ?_ _
  exact RowFn.slice (RowFn.self v0) 0 _ _

/-- The background density: the softplus of the branch's output 0. -/
theorem bgS_rows :
    RowFn (R := 16384) (k0_pay5 (F := Ideal) v0 v6 v12 v18) v0
      (fun x q => sp (rslice 0 1 (by decide) (sigNet v6 v12 v18 (rslice 0 63 (by decide) x)) q)) := by
  unfold k0_pay5
  exact RowFn.map (RowFn.slice (bgH_rows v0 v6 v12 v18) 0 slices_S16384x17_o0_0_S16384x1 (by decide)) _ sp
    (softplus_apply _ _ _ Ideal.ofBits_zero_f32 Ideal.ofBits_zero_f32)

/-- The background colour branch's input. -/
theorem bgIn_rows :
    RowFn (R := 16384) (k0_pay6 (F := Ideal) v0 v6 v12 v18) v0
      (fun x => colIn (viewsOf x) (sigNet v6 v12 v18 (rslice 0 63 (by decide) x))) := by
  unfold k0_pay6 colIn
  refine RowFn.cat (views_rows v0) ?_ _ rfl
  refine RowFn.truncf ?_ _
  exact RowFn.slice (bgH_rows v0 v6 v12 v18) 2 _ _

variable {K : Nat} {X : Arr 16384 K}

/-- A colour branch, of whatever its input's rows are. -/
theorem col_rows {f : Row K → Row 42} {v38 : FVec Ideal S16384x42 .bf16} (h38 : RowFn (R := 16384) (n := 42) v38 X f)
    (v40 : FVec Ideal S42x64 .bf16) (v45 v51 : Vec Ideal S64x64 .bf16) (v57 : Vec Ideal S64x3 .bf16) :
    RowFn (R := 16384) (n := 3) (k0_pay8 (F := Ideal) v38 v40 (constant S16384x64 .f32 0x00000000#32) v45 v51 v57) X
      (fun x => colNet v40 v45 v51 v57 (f x)) := by
  unfold k0_pay8 colNet
  simp only [shapeCast_self]
  refine RowFn.matmul ?_ _ none
  refine RowFn.truncf ?_ _
  refine RowFn.relu ?_ _ zeroB
  refine RowFn.matmul ?_ _ none
  refine RowFn.truncf ?_ _
  refine RowFn.relu ?_ _ zeroB
  refine RowFn.matmul ?_ _ none
  refine RowFn.truncf ?_ _
  refine RowFn.relu ?_ _ zeroB
  exact RowFn.matmul h38 _ none

/-- The foreground density branch, of whatever its input's rows are. -/
theorem fgH_rows {f : Row K → Row 71} {v2 : FVec Ideal S16384x71 .f32} (h2 : RowFn (R := 16384) (n := 71) v2 X f)
    (v61 : Vec Ideal S71x64 .bf16) (v67 : Vec Ideal S64x64 .bf16) (v73 : Vec Ideal S64x17 .bf16) :
    RowFn (R := 16384) (n := 17) (k0_pay9 (F := Ideal) v2 v61 v67 v73) X (fun x => sigNet v61 v67 v73 (f x)) := by
  unfold k0_pay9 sigNet
  simp only [shapeCast_self]
  refine RowFn.matmul ?_ _ none
  refine RowFn.truncf ?_ _
  refine RowFn.relu ?_ _ zeroB
  refine RowFn.matmul ?_ _ none
  refine RowFn.truncf ?_ _
  refine RowFn.relu ?_ _ zeroB
  refine RowFn.matmul ?_ _ none
  exact RowFn.truncf h2 _

/-- Output 0 of the foreground density branch. -/
theorem fgH0_rows {f : Row K → Row 71} {v2 : FVec Ideal S16384x71 .f32} (h2 : RowFn (R := 16384) (n := 71) v2 X f)
    (v61 : Vec Ideal S71x64 .bf16) (v67 : Vec Ideal S64x64 .bf16) (v73 : Vec Ideal S64x17 .bf16) :
    RowFn (R := 16384) (n := 1) (k0_pay10 (F := Ideal) v2 v61 v67 v73) X
      (fun x => rslice 0 1 (by decide) (sigNet v61 v67 v73 (f x))) := by
  unfold k0_pay10
  exact RowFn.slice (fgH_rows h2 v61 v67 v73) 0 _ _

/-- The softplus of a one-column array. -/
theorem fgS_rows {f : Row K → Row 1} {v76 : FVec Ideal S16384x1 .f32} (h76 : RowFn (R := 16384) (n := 1) v76 X f) :
    RowFn (R := 16384) (n := 1) (k0_pay11 (F := Ideal) v76 (Scalar.ofBits .f32 0x00000000#32)) X (fun x q => sp (f x q)) := by
  unfold k0_pay11
  exact RowFn.map h76 _ sp (softplus_apply _ _ _ Ideal.ofBits_zero_f32 Ideal.ofBits_zero_f32)

/-- The softplus of column 1 of an array. -/
theorem fgU_rows {f : Row K → Row 17} {v75 : FVec Ideal S16384x17 .f32} (h75 : RowFn (R := 16384) (n := 17) v75 X f) :
    RowFn (R := 16384) (n := 1) (k0_pay12 (F := Ideal) v75) X (fun x q => sp (rslice 1 1 (by decide) (f x) q)) := by
  unfold k0_pay12
  exact RowFn.map (RowFn.slice h75 1 slices_S16384x17_o0_1_S16384x1 (by decide)) _ sp
    (softplus_apply _ _ _ Ideal.ofBits_zero_f32 Ideal.ofBits_zero_f32)

/-- The first two layers of the foreground colour branch, rectified. -/
theorem fgC2_rows {fv : Row K → Row 27} {fh : Row K → Row 17} {v4 : FVec Ideal S16384x27 .bf16} {v75 : FVec Ideal S16384x17 .f32}
    (h4 : RowFn (R := 16384) (n := 27) v4 X fv) (h75 : RowFn (R := 16384) (n := 17) v75 X fh)
    (v109 : Vec Ideal S42x64 .bf16) (v115 : Vec Ideal S64x64 .bf16) :
    RowFn (R := 16384) (n := 64) (k0_pay13 (F := Ideal) v4 v75 v109 v115) X
      (fun x => rrelu (rlin v115 (rrelu (rlin v109 (colIn (fv x) (fh x)))))) := by
  unfold k0_pay13 colIn
  simp only [shapeCast_self]
  refine RowFn.truncf ?_ _
  refine RowFn.relu ?_ _ zeroB
  refine RowFn.matmul ?_ _ none
  refine RowFn.truncf ?_ _
  refine RowFn.relu ?_ _ zeroB
  refine RowFn.matmul ?_ _ none
  refine RowFn.cat h4 ?_ _ rfl
  refine RowFn.truncf ?_ _
  exact RowFn.slice h75 2 _ _

/-- The stored block: the density-weighted mix of the two colours (the foreground colour's last two layers are
    computed here), the total density, the foreground uncertainty and the foreground density, side by side. -/
theorem out_rows {sB sF uF : Row K → Row 1} {cB : Row K → Row 3} {c2 : Row K → Row 64}
    {v35 v90 v105 : FVec Ideal S16384x1 .f32} {v59 : FVec Ideal S16384x3 .f32} {v120 : FVec Ideal S16384x64 .bf16}
    (h35 : RowFn (R := 16384) (n := 1) v35 X sB) (h59 : RowFn (R := 16384) (n := 3) v59 X cB)
    (h90 : RowFn (R := 16384) (n := 1) v90 X sF) (h105 : RowFn (R := 16384) (n := 1) v105 X uF)
    (h120 : RowFn (R := 16384) (n := 64) v120 X c2) (v122 : FVec Ideal S64x64 .bf16) (v127 : Vec Ideal S64x3 .bf16) :
    RowFn (R := 16384) (n := 6) (k0_pay1 (F := Ideal) v35 v59 v90 v105 v120 v122 (constant S16384x64 .f32 0x00000000#32) v127) X
      (fun x j => if hj : j.val < 3 then
          Ideal.div (sB x 0) (sB x 0 + sF x 0 + eps) * cB x ⟨j.val, hj⟩
            + Ideal.div (sF x 0) (sB x 0 + sF x 0 + eps) * rlin v127 (rrelu (rlin v122 (c2 x))) ⟨j.val, hj⟩
        else if j.val = 3 then sB x 0 + sF x 0 + eps else if j.val = 4 then uF x 0 else sF x 0) := by
  unfold k0_pay1
  dsimp only
  have hT : RowFn (R := 16384) (n := 1)
      (addf (addf v35 v90) (broadcast S16384x1 (Scalar.ofBits (F := Ideal) .f32 0x3089705F#32))) X
      (fun x q => sB x q + sF x q + eps) :=
    RowFn.map (RowFn.map₂ h35 h90 _ (· + ·) (fun _ => rfl)) _ (· + eps) (fun _ => rfl)
  refine RowFn.cat4
    (f := fun x q => Ideal.div (sB x 0) (sB x 0 + sF x 0 + eps) * cB x q
      + Ideal.div (sF x 0) (sB x 0 + sF x 0 + eps) * rlin v127 (rrelu (rlin v122 (c2 x))) q)
    (g := fun x q => sB x q + sF x q + eps) (h := uF) (k := sF) ?_ hT h105 h90 _
  refine RowFn.map₂ (f := fun x q => Ideal.div (sB x 0) (sB x 0 + sF x 0 + eps) * cB x q)
    (g := fun x q => Ideal.div (sF x 0) (sB x 0 + sF x 0 + eps) * rlin v127 (rrelu (rlin v122 (c2 x))) q) ?_ ?_ _ (· + ·) (fun _ => rfl)
  · refine RowFn.map₂ (f := fun x _ => Ideal.div (sB x 0) (sB x 0 + sF x 0 + eps)) (g := cB) ?_ h59 _ (· * ·) (fun _ => rfl)
    refine RowFn.bcastTo (f := fun x q => Ideal.div (sB x q) (sB x q + sF x q + eps)) ?_ _ (by decide)
    exact RowFn.map₂ h35 hT _ Ideal.div (fun _ => rfl)
  · refine RowFn.map₂ (f := fun x _ => Ideal.div (sF x 0) (sB x 0 + sF x 0 + eps))
      (g := fun x => rlin v127 (rrelu (rlin v122 (c2 x)))) ?_ ?_ _ (· * ·) (fun _ => rfl)
    · refine RowFn.bcastTo (f := fun x q => Ideal.div (sF x q) (sB x q + sF x q + eps)) ?_ _ (by decide)
      exact RowFn.map₂ h90 hT _ Ideal.div (fun _ => rfl)
    · simp only [shapeCast_self]
      refine RowFn.matmul ?_ _ none
      refine RowFn.truncf ?_ _
      refine RowFn.relu ?_ _ zeroB
      exact RowFn.matmul h120 _ none

/-! ## The block a grid point stores -/

theorem hz : (![0, 0] : Fin 2 → Nat) = fun _ => 0 := funext fun a => by fin_cases a <;> rfl

/-- The fourteen weight blocks as the row functions' weights. -/
def blockWts (x1 : Vec Ideal S63x64 .bf16) (x2 : Vec Ideal S64x64 .bf16) (x3 : Vec Ideal S64x17 .bf16) (x4 : Vec Ideal S42x64 .bf16)
    (x5 x6 : Vec Ideal S64x64 .bf16) (x7 : Vec Ideal S64x3 .bf16) (x8 : Vec Ideal S71x64 .bf16) (x9 : Vec Ideal S64x64 .bf16)
    (x10 : Vec Ideal S64x17 .bf16) (x11 : Vec Ideal S42x64 .bf16) (x12 x13 : Vec Ideal S64x64 .bf16) (x14 : Vec Ideal S64x3 .bf16) : Wts :=
  ⟨x1, x2, x3, x4, x5, x6, x7, x8, x9, x10, x11, x12, x13, x14⟩

/-- What a grid point leaves in the output's staging buffer has rows `rowOut` of the input block's rows. -/
theorem block_rows (x0 : Vec Ideal S16384x98 .f32) (x1 : Vec Ideal S63x64 .bf16) (x2 : Vec Ideal S64x64 .bf16) (x3 : Vec Ideal S64x17 .bf16)
    (x4 : Vec Ideal S42x64 .bf16) (x5 x6 : Vec Ideal S64x64 .bf16) (x7 : Vec Ideal S64x3 .bf16) (x8 : Vec Ideal S71x64 .bf16)
    (x9 : Vec Ideal S64x64 .bf16) (x10 : Vec Ideal S64x17 .bf16) (x11 : Vec Ideal S42x64 .bf16) (x12 x13 : Vec Ideal S64x64 .bf16)
    (x14 : Vec Ideal S64x3 .bf16) :
    RowFn (R := 16384) (n := 6) (out0_15 (F := Ideal) x0 x1 x2 x3 x4 x5 x6 x7 x8 x9 x10 x11 x12 x13 x14) x0
      (rowOut (blockWts x1 x2 x3 x4 x5 x6 x7 x8 x9 x10 x11 x12 x13 x14)) := by
  unfold out0_15
  rw [View.canon_unit_zero hz]
  simp only [View.ld_unit_zero (S := S16384x98) hz, View.ld_unit_zero (S := S63x64) hz, View.ld_unit_zero (S := S64x64) hz,
    View.ld_unit_zero (S := S64x17) hz, View.ld_unit_zero (S := S42x64) hz, View.ld_unit_zero (S := S64x3) hz,
    View.ld_unit_zero (S := S71x64) hz]
  unfold k0_pay7 k0_pay14
  simp only [shapeCast_self]
  have hfg := fgH_rows (pts_rows x0) x8 x9 x10
  refine RowFn.congr (out_rows (bgS_rows x0 x1 x2 x3) (col_rows (bgIn_rows x0 x1 x2 x3) x4 x5 x6 x7)
    (fgS_rows (fgH0_rows (pts_rows x0) x8 x9 x10)) (fgU_rows hfg) (fgC2_rows (views_rows x0) hfg x11 x12) x13 x14) ?_
  intro r q
  unfold rowOut mix tot bgS fgS fgU bgC fgC bgH fgH blockWts colNet
  rfl

end Cert.KernelIdeal.Hand

end
-- ==== Proof.KernelArray.lean ====
/-
  From the blocks to the whole result array.

  The grid has 64 points; point `t` reads rows `16384 t … 16384 t + 16383` of the input and writes the same rows
  of the result, and every weight window's block is its whole array at every point. So what point `t` writes back is
  block `t` of ONE array, the one whose row `r` is `rowOut` of row `r` of the input; the 64 blocks cover the
  result array, which therefore ends holding that array.
-/
import proofs.«116642_j48120813584957_1_alg».proof.Proof.Gen.KernelIdeal.Value
import proofs.«116642_j48120813584957_1_alg».proof.Proof.KernelRows
import Idealize.ShloMosaic.Lib.Pipeline.Value

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.Nerf

variable (m : (ℓ : Loc nD τ sig) → Buf (Elt Ideal) ℓ) (ρ : Dev nD → PrngReg)

/-- The printed index maps over the 64 grid points: the input and the result move one block of rows per point, the
    weight windows stay at block (0, 0). -/
theorem idx_facts : ∀ t : Fin cfg0.N, win0_0.index t (0 : Fin 2) = t.val
    ∧ win0_0.index t (1 : Fin 2) = 0
    ∧ win0_15.index t (0 : Fin 2) = t.val
    ∧ win0_15.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0
    ∧ win0_14.index t (0 : Fin 2) = 0
    ∧ win0_14.index t (1 : Fin 2) = 0 :=
  (by decide +kernel : ∀ t : Fin grid0.N, _)

/-- Weight window 1's block is its whole array at every grid point. -/
theorem wblk1 (c : Dev nD) (t : Fin cfg0.N) : (iblk m c 1 t : S63x64.Idx → EReal) = V m c main_v1 := by
  have e0 : win0_1.index t (0 : Fin 2) = 0 := (idx_facts t).2.2.2.2.1
  have e1 : win0_1.index t (1 : Fin 2) = 0 := (idx_facts t).2.2.2.2.2.1
  funext y
  unfold iblk
  rw [View.read_apply]
  show V m c main_v1 _ = V m c main_v1 y
  congr 1
  funext a
  apply Fin.ext
  match a with
  | ⟨0, _⟩ => show win0_1.index t (0 : Fin 2) * 63 + 1 * (y 0).val = (y 0).val; rw [e0]; omega
  | ⟨1, _⟩ => show win0_1.index t (1 : Fin 2) * 64 + 1 * (y 1).val = (y 1).val; rw [e1]; omega

/-- Weight window 2's block is its whole array at every grid point. -/
theorem wblk2 (c : Dev nD) (t : Fin cfg0.N) : (iblk m c 2 t : S64x64.Idx → EReal) = V m c main_v3 := by
  have e0 : win0_2.index t (0 : Fin 2) = 0 := (idx_facts t).2.2.2.2.2.2.1
  have e1 : win0_2.index t (1 : Fin 2) = 0 := (idx_facts t).2.2.2.2.2.2.2.1
  funext y
  unfold iblk
  rw [View.read_apply]
  show V m c main_v3 _ = V m c main_v3 y
  congr 1
  funext a
  apply Fin.ext
  match a with
  | ⟨0, _⟩ => show win0_2.index t (0 : Fin 2) * 64 + 1 * (y 0).val = (y 0).val; rw [e0]; omega
  | ⟨1, _⟩ => show win0_2.index t (1 : Fin 2) * 64 + 1 * (y 1).val = (y 1).val; rw [e1]; omega

/-- Weight window 3's block is its whole array at every grid point. -/
theorem wblk3 (c : Dev nD) (t : Fin cfg0.N) : (iblk m c 3 t : S64x17.Idx → EReal) = V m c main_v5 := by
  have e0 : win0_3.index t (0 : Fin 2) = 0 := (idx_facts t).2.2.2.2.2.2.2.2.1
  have e1 : win0_3.index t (1 : Fin 2) = 0 := (idx_facts t).2.2.2.2.2.2.2.2.2.1
  funext y
  unfold iblk
  rw [View.read_apply]
  show V m c main_v5 _ = V m c main_v5 y
  congr 1
  funext a
  apply Fin.ext
  match a with
  | ⟨0, _⟩ => show win0_3.index t (0 : Fin 2) * 64 + 1 * (y 0).val = (y 0).val; rw [e0]; omega
  | ⟨1, _⟩ => show win0_3.index t (1 : Fin 2) * 17 + 1 * (y 1).val = (y 1).val; rw [e1]; omega

/-- Weight window 4's block is its whole array at every grid point. -/
theorem wblk4 (c : Dev nD) (t : Fin cfg0.N) : (iblk m c 4 t : S42x64.Idx → EReal) = V m c main_v7 := by
  have e0 : win0_4.index t (0 : Fin 2) = 0 := (idx_facts t).2.2.2.2.2.2.2.2.2.2.1
  have e1 : win0_4.index t (1 : Fin 2) = 0 := (idx_facts t).2.2.2.2.2.2.2.2.2.2.2.1
  funext y
  unfold iblk
  rw [View.read_apply]
  show V m c main_v7 _ = V m c main_v7 y
  congr 1
  funext a
  apply Fin.ext
  match a with
  | ⟨0, _⟩ => show win0_4.index t (0 : Fin 2) * 42 + 1 * (y 0).val = (y 0).val; rw [e0]; omega
  | ⟨1, _⟩ => show win0_4.index t (1 : Fin 2) * 64 + 1 * (y 1).val = (y 1).val; rw [e1]; omega

/-- Weight window 5's block is its whole array at every grid point. -/
theorem wblk5 (c : Dev nD) (t : Fin cfg0.N) : (iblk m c 5 t : S64x64.Idx → EReal) = V m c main_v9 := by
  have e0 : win0_5.index t (0 : Fin 2) = 0 := (idx_facts t).2.2.2.2.2.2.2.2.2.2.2.2.1
  have e1 : win0_5.index t (1 : Fin 2) = 0 := (idx_facts t).2.2.2.2.2.2.2.2.2.2.2.2.2.1
  funext y
  unfold iblk
  rw [View.read_apply]
  show V m c main_v9 _ = V m c main_v9 y
  congr 1
  funext a
  apply Fin.ext
  match a with
  | ⟨0, _⟩ => show win0_5.index t (0 : Fin 2) * 64 + 1 * (y 0).val = (y 0).val; rw [e0]; omega
  | ⟨1, _⟩ => show win0_5.index t (1 : Fin 2) * 64 + 1 * (y 1).val = (y 1).val; rw [e1]; omega

/-- Weight window 6's block is its whole array at every grid point. -/
theorem wblk6 (c : Dev nD) (t : Fin cfg0.N) : (iblk m c 6 t : S64x64.Idx → EReal) = V m c main_v11 := by
  have e0 : win0_6.index t (0 : Fin 2) = 0 := (idx_facts t).2.2.2.2.2.2.2.2.2.2.2.2.2.2.1
  have e1 : win0_6.index t (1 : Fin 2) = 0 := (idx_facts t).2.2.2.2.2.2.2.2.2.2.2.2.2.2.2.1
  funext y
  unfold iblk
  rw [View.read_apply]
  show V m c main_v11 _ = V m c main_v11 y
  congr 1
  funext a
  apply Fin.ext
  match a with
  | ⟨0, _⟩ => show win0_6.index t (0 : Fin 2) * 64 + 1 * (y 0).val = (y 0).val; rw [e0]; omega
  | ⟨1, _⟩ => show win0_6.index t (1 : Fin 2) * 64 + 1 * (y 1).val = (y 1).val; rw [e1]; omega

/-- Weight window 7's block is its whole array at every grid point. -/
theorem wblk7 (c : Dev nD) (t : Fin cfg0.N) : (iblk m c 7 t : S64x3.Idx → EReal) = V m c main_v13 := by
  have e0 : win0_7.index t (0 : Fin 2) = 0 := (idx_facts t).2.2.2.2.2.2.2.2.2.2.2.2.2.2.2.2.1
  have e1 : win0_7.index t (1 : Fin 2) = 0 := (idx_facts t).2.2.2.2.2.2.2.2.2.2.2.2.2.2.2.2.2.1
  funext y
  unfold iblk
  rw [View.read_apply]
  show V m c main_v13 _ = V m c main_v13 y
  congr 1
  funext a
  apply Fin.ext
  match a with
  | ⟨0, _⟩ => show win0_7.index t (0 : Fin 2) * 64 + 1 * (y 0).val = (y 0).val; rw [e0]; omega
  | ⟨1, _⟩ => show win0_7.index t (1 : Fin 2) * 3 + 1 * (y 1).val = (y 1).val; rw [e1]; omega

/-- Weight window 8's block is its whole array at every grid point. -/
theorem wblk8 (c : Dev nD) (t : Fin cfg0.N) : (iblk m c 8 t : S71x64.Idx → EReal) = V m c main_v15 := by
  have e0 : win0_8.index t (0 : Fin 2) = 0 := (idx_facts t).2.2.2.2.2.2.2.2.2.2.2.2.2.2.2.2.2.2.1
  have e1 : win0_8.index t (1 : Fin 2) = 0 := (idx_facts t).2.2.2.2.2.2.2.2.2.2.2.2.2.2.2.2.2.2.2.1
  funext y
  unfold iblk
  rw [View.read_apply]
  show V m c main_v15 _ = V m c main_v15 y
  congr 1
  funext a
  apply Fin.ext
  match a with
  | ⟨0, _⟩ => show win0_8.index t (0 : Fin 2) * 71 + 1 * (y 0).val = (y 0).val; rw [e0]; omega
  | ⟨1, _⟩ => show win0_8.index t (1 : Fin 2) * 64 + 1 * (y 1).val = (y 1).val; rw [e1]; omega

/-- Weight window 9's block is its whole array at every grid point. -/
theorem wblk9 (c : Dev nD) (t : Fin cfg0.N) : (iblk m c 9 t : S64x64.Idx → EReal) = V m c main_v17 := by
  have e0 : win0_9.index t (0 : Fin 2) = 0 := (idx_facts t).2.2.2.2.2.2.2.2.2.2.2.2.2.2.2.2.2.2.2.2.1
  have e1 : win0_9.index t (1 : Fin 2) = 0 := (idx_facts t).2.2.2.2.2.2.2.2.2.2.2.2.2.2.2.2.2.2.2.2.2.1
  funext y
  unfold iblk
  rw [View.read_apply]
  show V m c main_v17 _ = V m c main_v17 y
  congr 1
  funext a
  apply Fin.ext
  match a with
  | ⟨0, _⟩ => show win0_9.index t (0 : Fin 2) * 64 + 1 * (y 0).val = (y 0).val; rw [e0]; omega
  | ⟨1, _⟩ => show win0_9.index t (1 : Fin 2) * 64 + 1 * (y 1).val = (y 1).val; rw [e1]; omega

/-- Weight window 10's block is its whole array at every grid point. -/
theorem wblk10 (c : Dev nD) (t : Fin cfg0.N) : (iblk m c 10 t : S64x17.Idx → EReal) = V m c main_v19 := by
  have e0 : win0_10.index t (0 : Fin 2) = 0 := (idx_facts t).2.2.2.2.2.2.2.2.2.2.2.2.2.2.2.2.2.2.2.2.2.2.1
  have e1 : win0_10.index t (1 : Fin 2) = 0 := (idx_facts t).2.2.2.2.2.2.2.2.2.2.2.2.2.2.2.2.2.2.2.2.2.2.2.1
  funext y
  unfold iblk
  rw [View.read_apply]
  show V m c main_v19 _ = V m c main_v19 y
  congr 1
  funext a
  apply Fin.ext
  match a with
  | ⟨0, _⟩ => show win0_10.index t (0 : Fin 2) * 64 + 1 * (y 0).val = (y 0).val; rw [e0]; omega
  | ⟨1, _⟩ => show win0_10.index t (1 : Fin 2) * 17 + 1 * (y 1).val = (y 1).val; rw [e1]; omega

/-- Weight window 11's block is its whole array at every grid point. -/
theorem wblk11 (c : Dev nD) (t : Fin cfg0.N) : (iblk m c 11 t : S42x64.Idx → EReal) = V m c main_v21 := by
  have e0 : win0_11.index t (0 : Fin 2) = 0 := (idx_facts t).2.2.2.2.2.2.2.2.2.2.2.2.2.2.2.2.2.2.2.2.2.2.2.2.1
  have e1 : win0_11.index t (1 : Fin 2) = 0 := (idx_facts t).2.2.2.2.2.2.2.2.2.2.2.2.2.2.2.2.2.2.2.2.2.2.2.2.2.1
  funext y
  unfold iblk
  rw [View.read_apply]
  show V m c main_v21 _ = V m c main_v21 y
  congr 1
  funext a
  apply Fin.ext
  match a with
  | ⟨0, _⟩ => show win0_11.index t (0 : Fin 2) * 42 + 1 * (y 0).val = (y 0).val; rw [e0]; omega
  | ⟨1, _⟩ => show win0_11.index t (1 : Fin 2) * 64 + 1 * (y 1).val = (y 1).val; rw [e1]; omega

/-- Weight window 12's block is its whole array at every grid point. -/
theorem wblk12 (c : Dev nD) (t : Fin cfg0.N) : (iblk m c 12 t : S64x64.Idx → EReal) = V m c main_v23 := by
  have e0 : win0_12.index t (0 : Fin 2) = 0 := (idx_facts t).2.2.2.2.2.2.2.2.2.2.2.2.2.2.2.2.2.2.2.2.2.2.2.2.2.2.1
  have e1 : win0_12.index t (1 : Fin 2) = 0 := (idx_facts t).2.2.2.2.2.2.2.2.2.2.2.2.2.2.2.2.2.2.2.2.2.2.2.2.2.2.2.1
  funext y
  unfold iblk
  rw [View.read_apply]
  show V m c main_v23 _ = V m c main_v23 y
  congr 1
  funext a
  apply Fin.ext
  match a with
  | ⟨0, _⟩ => show win0_12.index t (0 : Fin 2) * 64 + 1 * (y 0).val = (y 0).val; rw [e0]; omega
  | ⟨1, _⟩ => show win0_12.index t (1 : Fin 2) * 64 + 1 * (y 1).val = (y 1).val; rw [e1]; omega

/-- Weight window 13's block is its whole array at every grid point. -/
theorem wblk13 (c : Dev nD) (t : Fin cfg0.N) : (iblk m c 13 t : S64x64.Idx → EReal) = V m c main_v25 := by
  have e0 : win0_13.index t (0 : Fin 2) = 0 := (idx_facts t).2.2.2.2.2.2.2.2.2.2.2.2.2.2.2.2.2.2.2.2.2.2.2.2.2.2.2.2.1
  have e1 : win0_13.index t (1 : Fin 2) = 0 := (idx_facts t).2.2.2.2.2.2.2.2.2.2.2.2.2.2.2.2.2.2.2.2.2.2.2.2.2.2.2.2.2.1
  funext y
  unfold iblk
  rw [View.read_apply]
  show V m c main_v25 _ = V m c main_v25 y
  congr 1
  funext a
  apply Fin.ext
  match a with
  | ⟨0, _⟩ => show win0_13.index t (0 : Fin 2) * 64 + 1 * (y 0).val = (y 0).val; rw [e0]; omega
  | ⟨1, _⟩ => show win0_13.index t (1 : Fin 2) * 64 + 1 * (y 1).val = (y 1).val; rw [e1]; omega

/-- Weight window 14's block is its whole array at every grid point. -/
theorem wblk14 (c : Dev nD) (t : Fin cfg0.N) : (iblk m c 14 t : S64x3.Idx → EReal) = V m c main_v27 := by
  have e0 : win0_14.index t (0 : Fin 2) = 0 := (idx_facts t).2.2.2.2.2.2.2.2.2.2.2.2.2.2.2.2.2.2.2.2.2.2.2.2.2.2.2.2.2.2.1
  have e1 : win0_14.index t (1 : Fin 2) = 0 := (idx_facts t).2.2.2.2.2.2.2.2.2.2.2.2.2.2.2.2.2.2.2.2.2.2.2.2.2.2.2.2.2.2.2
  funext y
  unfold iblk
  rw [View.read_apply]
  show V m c main_v27 _ = V m c main_v27 y
  congr 1
  funext a
  apply Fin.ext
  match a with
  | ⟨0, _⟩ => show win0_14.index t (0 : Fin 2) * 64 + 1 * (y 0).val = (y 0).val; rw [e0]; omega
  | ⟨1, _⟩ => show win0_14.index t (1 : Fin 2) * 3 + 1 * (y 1).val = (y 1).val; rw [e1]; omega

/-- The fourteen transposed weight arrays as the region finds them. -/
def kW (c : Dev nD) : Wts :=
  blockWts (V m c main_v1) (V m c main_v3) (V m c main_v5) (V m c main_v7) (V m c main_v9) (V m c main_v11) (V m c main_v13)
    (V m c main_v15) (V m c main_v17) (V m c main_v19) (V m c main_v21) (V m c main_v23) (V m c main_v25) (V m c main_v27)

/-- The array the result ends holding: row `r` is `rowOut` of row `r` of the input. -/
def G (c : Dev nD) : S1048576x6.Idx → EReal := outArr (kW m c) (V m c main_arg0)

/-- Row `p` of the input window's block at point `t` is row `16384 t + p` of the input. -/
theorem xblk_row (c : Dev nD) (t : Fin cfg0.N) (p : Fin 16384) (P : Fin 1048576) (hP : P.val = 16384 * t.val + p.val) :
    rowOf (R := 16384) (n := 98) (iblk m c 0 t) p = rowOf (R := 1048576) (n := 98) (V m c main_arg0) P := by
  have e0 : win0_0.index t (0 : Fin 2) = t.val := (idx_facts t).1
  have e1 : win0_0.index t (1 : Fin 2) = 0 := (idx_facts t).2.1
  funext k
  unfold rowOf iblk
  rw [View.read_apply]
  show V m c main_arg0 _ = V m c main_arg0 (ix2 P k)
  congr 1
  funext a
  apply Fin.ext
  match a with
  | ⟨0, _⟩ => show win0_0.index t (0 : Fin 2) * 16384 + 1 * p.val = P.val; rw [e0, hP]; omega
  | ⟨1, _⟩ => show win0_0.index t (1 : Fin 2) * 98 + 1 * k.val = k.val; rw [e1]; omega

/-- WHAT POINT `t` WRITES BACK is block `t` of `G`. -/
theorem flushed_eq (c : Dev nD) (t : Fin cfg0.N) :
    (dats m 0 c).flushed 15 t = ((cfg0.win 15).blk t).view.read (Elt Ideal) (G m c) := by
  have e0 : win0_15.index t (0 : Fin 2) = t.val := (idx_facts t).2.2.1
  have e1 : win0_15.index t (1 : Fin 2) = 0 := (idx_facts t).2.2.2.1
  have hN : t.val < 64 := lt_of_lt_of_eq t.isLt N_0
  rw [flushed15]
  funext y
  have hp : (y 0).val < 16384 := ((cfg0.win 15).xinj (grid0.coords t) y 0).isLt
  have hq : (y 1).val < 6 := ((cfg0.win 15).xinj (grid0.coords t) y 1).isLt
  have hx : (cfg0.win 15).xinj (grid0.coords t) y = (ix2 (⟨(y 0).val, hp⟩ : Fin 16384) (⟨(y 1).val, hq⟩ : Fin 6) : S16384x6.Idx) :=
    funext fun a => by
      match a with
      | ⟨0, _⟩ => rfl
      | ⟨1, _⟩ => rfl
  show out0_15 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t)
      ((cfg0.win 15).xinj (grid0.coords t) y)
    = G m c (((cfg0.win 15).blk t).view.emb y)
  rw [hx]
  refine (block_rows (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) ⟨(y 0).val, hp⟩ ⟨(y 1).val, hq⟩).trans ?_
  rw [wblk1 m c t, wblk2 m c t, wblk3 m c t, wblk4 m c t, wblk5 m c t, wblk6 m c t, wblk7 m c t, wblk8 m c t, wblk9 m c t, wblk10 m c t,
    wblk11 m c t, wblk12 m c t, wblk13 m c t, wblk14 m c t,
    xblk_row m c t ⟨(y 0).val, hp⟩ ⟨16384 * t.val + (y 0).val, by omega⟩ rfl]
  have hemb : ((cfg0.win 15).blk t).view.emb y = (ix2 (⟨16384 * t.val + (y 0).val, by omega⟩ : Fin 1048576) (⟨(y 1).val, hq⟩ : Fin 6) : S1048576x6.Idx) := by
    funext a
    apply Fin.ext
    match a with
    | ⟨0, _⟩ => show win0_15.index t (0 : Fin 2) * 16384 + 1 * (y 0).val = 16384 * t.val + (y 0).val; rw [e0]; omega
    | ⟨1, _⟩ => show win0_15.index t (1 : Fin 2) * 6 + 1 * (y 1).val = (y 1).val; rw [e1]; omega
  rw [hemb]
  rfl

/-- An index of the result array is in point `t`'s block iff each coordinate is in the block's range. -/
theorem mem_blk (t : Fin cfg0.N) (i : S1048576x6.Idx) :
    i ∈ ((cfg0.win 15).blk t).view.set ↔ ∀ a : Fin 2, win0_15.index t a * S16384x6.size a ≤ (i a).val ∧ (i a).val < win0_15.index t a * S16384x6.size a + S16384x6.size a := by
  show i ∈ ((View.whole main_v28).slice (win0_15.rect t)).set ↔ _
  rw [View.set_slice_whole, Rect.mem_set_unit]
  exact Iff.rfl

/-- Every index of the result array is in the block of the point its row falls in. -/
theorem cover (i : S1048576x6.Idx) : ∃ t : Fin cfg0.N, (cfg0.win 15).flush t = true ∧ i ∈ ((cfg0.win 15).blk t).view.set := by
  have hi0 : (i 0).val < 1048576 := (i 0).isLt
  have hi1 : (i 1).val < 6 := (i 1).isLt
  have hN : cfg0.N = 64 := N_0
  let t : Fin cfg0.N := ⟨(i 0).val / 16384, by rw [hN]; omega⟩
  have e0 : win0_15.index t (0 : Fin 2) = (i 0).val / 16384 := (idx_facts t).2.2.1
  have e1 : win0_15.index t (1 : Fin 2) = 0 := (idx_facts t).2.2.2.1
  refine ⟨t, flush0_15 t, ?_⟩
  rw [mem_blk]
  intro a
  match a with
  | ⟨0, _⟩ => show win0_15.index t (0 : Fin 2) * 16384 ≤ (i 0).val ∧ (i 0).val < win0_15.index t (0 : Fin 2) * 16384 + 16384; rw [e0]; omega
  | ⟨1, _⟩ => show win0_15.index t (1 : Fin 2) * 6 ≤ (i 1).val ∧ (i 1).val < win0_15.index t (1 : Fin 2) * 6 + 6; rw [e1]; omega

/-- THE RESULT ARRAY after the run is `G`. -/
theorem final (c : Dev nD) : (dats m 0 c).arrAt 15 cfg0.N = G m c :=
  (dats m 0 c).arrAt_eq_of_cover 15 (G m c) (fun t _ => flushed_eq m c t) cover

/-- The run, read: the result array at `G`, the arguments unchanged. -/
theorem run : θ_run defs (onTc (τ := τ) (main (F := Ideal))) ⟨m, fun _ => 0, ρ⟩ fun r => ∀ c : Dev nD,
      r.2.mem ((c : Thread nD τ).loc main_v28) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final m c), (h c).2⟩) (run_blocks m ρ)

end Cert.KernelIdeal.Hand

end
-- ==== Proof.RefRows.lean ====
/-
  The reference program, one row at a time.

  Every intermediate array of the reference has rows that are a fixed function of the rows of the input array. The
  density branches are three linear layers with a rectifier between them; the softplus is applied entry by entry to
  a column of a density branch; the colour branches are four linear layers fed the view features and the last fifteen
  outputs of a density branch; the result row is the density-weighted mix of the two colours followed by the total
  density, the foreground uncertainty and the foreground density.
-/
import proofs.«116642_j48120813584957_1_alg».proof.Proof.Gen.ReferenceIdeal.Read
import proofs.«116642_j48120813584957_1_alg».proof.Proof.RowOps

noncomputable section

namespace Cert.ReferenceIdeal.Hand

open Idealize.ShloMosaic Idealize.ShloMosaic.ValueIdx Cert.ReferenceIdeal Cert.ReferenceIdeal.Gen Cert.ReferenceIdeal.Read Cert.Nerf

/-- The scalar zero constant repeated over any shape is zero everywhere. -/
theorem zero_bcast {s : Shape} (h : (⟨0, ![]⟩ : Shape).BroadcastsInDim s ![]) (i : s.Idx) :
    broadcastInDim s ![] h (constant (F := Ideal) ⟨0, ![]⟩ .f32 0x00000000#32) i = 0 :=
  (broadcastInDim_apply (s := ⟨0, ![]⟩) (t := s) ![] h (constant (F := Ideal) ⟨0, ![]⟩ .f32 0x00000000#32) i
    (fun a => a.elim0) (fun a => a.elim0)).trans Ideal.ofBits_zero_f32

/-- The softplus as the reference spells it on a vector (with its not-a-number guard and its zero constants), read at
    an entry: the softplus of that entry. -/
theorem softplus_apply {s : Shape} (a : FVec Ideal s .f32) (h : (⟨0, ![]⟩ : Shape).BroadcastsInDim s ![]) (i : s.Idx) :
    select
      (cmpf .une (subf a (broadcastInDim s ![] h (constant (F := Ideal) ⟨0, ![]⟩ .f32 0x00000000#32)))
        (subf a (broadcastInDim s ![] h (constant (F := Ideal) ⟨0, ![]⟩ .f32 0x00000000#32))))
      (addf a (broadcastInDim s ![] h (constant (F := Ideal) ⟨0, ![]⟩ .f32 0x00000000#32)))
      (addf (maximumf a (broadcastInDim s ![] h (constant (F := Ideal) ⟨0, ![]⟩ .f32 0x00000000#32)))
        (Host.log1p (Host.exp (Host.negf (Host.absf
          (subf a (broadcastInDim s ![] h (constant (F := Ideal) ⟨0, ![]⟩ .f32 0x00000000#32)))))))) i
      = sp (a i) := by
  have hz := zero_bcast h i
  generalize broadcastInDim s ![] h (constant (F := Ideal) ⟨0, ![]⟩ .f32 0x00000000#32) = Z at hz ⊢
  show Scalar.select (Ideal.cmp .une (a i - Z i) (a i - Z i)) (a i + Z i)
    (max (a i) (Z i) + Ideal.log1p (Ideal.exp (-(max (a i - Z i) (-(a i - Z i)))))) = sp (a i)
  rw [hz]
  exact sp_guarded .une (Or.inr rfl) (a i) _ rfl

/-- The first entries of the first entries of a row are its first entries. -/
theorem rslice_rslice_zero {n k m : Nat} (h1 : 0 + k ≤ n) (h2 : 0 + m ≤ k) (h3 : 0 + m ≤ n) (v : Row n) :
    rslice 0 m h2 (rslice 0 k h1 v) = rslice 0 m h3 v :=
  funext fun j => congrArg v (Fin.ext (Nat.zero_add _))

/-- The same vector entries under a function of rows that agrees. -/
theorem colFn_congr {R K : Nat} {A : Col R} {X : Arr R K} {f g : Row K → EReal} (hA : ColFn A X f) (h : ∀ r, f r = g r) :
    ColFn A X g := fun p => (hA p).trans (h _)

variable (x0 : (⟨S1048576x98, .f32⟩ : BufTy).Contents (Elt Ideal))
  (x1 : (⟨S64x63, .f32⟩ : BufTy).Contents (Elt Ideal)) (x2 : (⟨S64x64, .f32⟩ : BufTy).Contents (Elt Ideal))
  (x3 : (⟨S17x64, .f32⟩ : BufTy).Contents (Elt Ideal)) (x4 : (⟨S64x42, .f32⟩ : BufTy).Contents (Elt Ideal))
  (x5 x6 : (⟨S64x64, .f32⟩ : BufTy).Contents (Elt Ideal)) (x7 : (⟨S3x64, .f32⟩ : BufTy).Contents (Elt Ideal))
  (x8 : (⟨S64x71, .f32⟩ : BufTy).Contents (Elt Ideal)) (x9 : (⟨S64x64, .f32⟩ : BufTy).Contents (Elt Ideal))
  (x10 : (⟨S17x64, .f32⟩ : BufTy).Contents (Elt Ideal)) (x11 : (⟨S64x42, .f32⟩ : BufTy).Contents (Elt Ideal))
  (x12 x13 : (⟨S64x64, .f32⟩ : BufTy).Contents (Elt Ideal)) (x14 : (⟨S3x64, .f32⟩ : BufTy).Contents (Elt Ideal))

/-- The reference's transposed weights. -/
def wts : Cert.Nerf.Wts :=
  ⟨val_main_v3 (F := Ideal) x1, val_main_v6 (F := Ideal) x2, val_main_v9 (F := Ideal) x3, val_main_v19 (F := Ideal) x4,
   val_main_v22 (F := Ideal) x5, val_main_v25 (F := Ideal) x6, val_main_v28 (F := Ideal) x7, val_main_v30 (F := Ideal) x8,
   val_main_v33 (F := Ideal) x9, val_main_v36 (F := Ideal) x10, val_main_v46 (F := Ideal) x11, val_main_v49 (F := Ideal) x12,
   val_main_v52 (F := Ideal) x13, val_main_v55 (F := Ideal) x14⟩

/-! ## The density branches -/

/-- The background density branch's array: row by row, the three-layer network of the first 63 entries. -/
theorem bgH_rows : RowFn (R := 1048576) (val_main_v10 (F := Ideal) x0 x1 x2 x3) x0 (bgH (wts x1 x2 x3 x4 x5 x6 x7 x8 x9 x10 x11 x12 x13 x14)) := by
  have h : RowFn (R := 1048576) (val_main_v10 (F := Ideal) x0 x1 x2 x3) x0
      (fun x => sigNet (val_main_v3 (F := Ideal) x1) (val_main_v6 (F := Ideal) x2) (val_main_v9 (F := Ideal) x3)
        (rslice 0 63 (by decide) (rslice 0 71 (by decide) x))) := by
    unfold val_main_v10 val_main_v8 val_main_v7 val_main_v5 val_main_v4 val_main_v2 val_main_v0 sigNet
    refine RowFn.dotGeneral ?_ _ none _
    refine RowFn.relu ?_ _ (zero_bcast _)
    refine RowFn.dotGeneral ?_ _ none _
    refine RowFn.relu ?_ _ (zero_bcast _)
    refine RowFn.dotGeneral ?_ _ none _
    exact RowFn.slice (RowFn.slice (RowFn.self x0) 0 _ (by decide)) 0 _ (by decide)
  refine RowFn.congr h (fun r q => ?_)
  show sigNet _ _ _ (rslice 0 63 _ (rslice 0 71 _ r)) q = sigNet _ _ _ (rslice 0 63 _ r) q
  rw [rslice_rslice_zero _ _ (by decide)]
  rfl

/-- The foreground density branch's array: row by row, the three-layer network of the first 71 entries. -/
theorem fgH_rows : RowFn (R := 1048576) (val_main_v37 (F := Ideal) x0 x8 x9 x10) x0 (fgH (wts x1 x2 x3 x4 x5 x6 x7 x8 x9 x10 x11 x12 x13 x14)) := by
  show RowFn (R := 1048576) _ x0
    (fun x => sigNet (val_main_v30 (F := Ideal) x8) (val_main_v33 (F := Ideal) x9) (val_main_v36 (F := Ideal) x10) (rslice 0 71 (by decide) x))
  unfold val_main_v37 val_main_v35 val_main_v34 val_main_v32 val_main_v31 val_main_v0 sigNet
  refine RowFn.dotGeneral ?_ _ none _
  refine RowFn.relu ?_ _ (zero_bcast _)
  refine RowFn.dotGeneral ?_ _ none _
  refine RowFn.relu ?_ _ (zero_bcast _)
  refine RowFn.dotGeneral ?_ _ none _
  exact RowFn.slice (RowFn.self x0) 0 _ (by decide)

/-! ## The colour branches -/

/-- The view slice has rows: the last 27 entries. -/
theorem views_rows : RowFn (R := 1048576) (val_main_v1 (F := Ideal) x0) x0 viewsOf := by
  unfold val_main_v1
  exact RowFn.slice (RowFn.self x0) 71 _ (by decide)

/-- The background colour branch's input: the view features beside outputs 2..16 of the density branch. -/
theorem bgIn_rows : RowFn (R := 1048576) (val_main_v18 (F := Ideal) x0 x1 x2 x3) x0 (fun x => colIn (viewsOf x) (bgH (wts x1 x2 x3 x4 x5 x6 x7 x8 x9 x10 x11 x12 x13 x14) x)) := by
  unfold val_main_v18 val_main_v17
  exact RowFn.cat (views_rows x0) (RowFn.slice (bgH_rows x0 x1 x2 x3 x4 x5 x6 x7 x8 x9 x10 x11 x12 x13 x14) 2 _ (by decide)) _ rfl

/-- The foreground colour branch's input. -/
theorem fgIn_rows : RowFn (R := 1048576) (val_main_v45 (F := Ideal) x0 x8 x9 x10) x0 (fun x => colIn (viewsOf x) (fgH (wts x1 x2 x3 x4 x5 x6 x7 x8 x9 x10 x11 x12 x13 x14) x)) := by
  unfold val_main_v45 val_main_v44
  exact RowFn.cat (views_rows x0) (RowFn.slice (fgH_rows x0 x1 x2 x3 x4 x5 x6 x7 x8 x9 x10 x11 x12 x13 x14) 2 _ (by decide)) _ rfl

/-- The background colour array: row by row, the four-layer network of the colour input. -/
theorem bgC_rows : RowFn (R := 1048576) (val_main_v29 (F := Ideal) x0 x1 x2 x3 x4 x5 x6 x7) x0 (bgC (wts x1 x2 x3 x4 x5 x6 x7 x8 x9 x10 x11 x12 x13 x14)) := by
  show RowFn (R := 1048576) _ x0
    (fun x => colNet (val_main_v19 (F := Ideal) x4) (val_main_v22 (F := Ideal) x5) (val_main_v25 (F := Ideal) x6) (val_main_v28 (F := Ideal) x7) (colIn (viewsOf x) (bgH (wts x1 x2 x3 x4 x5 x6 x7 x8 x9 x10 x11 x12 x13 x14) x)))
  unfold val_main_v29 val_main_v27 val_main_v26 val_main_v24 val_main_v23 val_main_v21 val_main_v20 colNet
  refine RowFn.dotGeneral ?_ _ none _
  refine RowFn.relu ?_ _ (zero_bcast _)
  refine RowFn.dotGeneral ?_ _ none _
  refine RowFn.relu ?_ _ (zero_bcast _)
  refine RowFn.dotGeneral ?_ _ none _
  refine RowFn.relu ?_ _ (zero_bcast _)
  refine RowFn.dotGeneral ?_ _ none _
  exact bgIn_rows x0 x1 x2 x3 x4 x5 x6 x7 x8 x9 x10 x11 x12 x13 x14

/-- The foreground colour array. -/
theorem fgC_rows : RowFn (R := 1048576) (val_main_v56 (F := Ideal) x0 x8 x9 x10 x11 x12 x13 x14) x0 (fgC (wts x1 x2 x3 x4 x5 x6 x7 x8 x9 x10 x11 x12 x13 x14)) := by
  show RowFn (R := 1048576) _ x0
    (fun x => colNet (val_main_v46 (F := Ideal) x11) (val_main_v49 (F := Ideal) x12) (val_main_v52 (F := Ideal) x13) (val_main_v55 (F := Ideal) x14) (colIn (viewsOf x) (fgH (wts x1 x2 x3 x4 x5 x6 x7 x8 x9 x10 x11 x12 x13 x14) x)))
  unfold val_main_v56 val_main_v54 val_main_v53 val_main_v51 val_main_v50 val_main_v48 val_main_v47 colNet
  refine RowFn.dotGeneral ?_ _ none _
  refine RowFn.relu ?_ _ (zero_bcast _)
  refine RowFn.dotGeneral ?_ _ none _
  refine RowFn.relu ?_ _ (zero_bcast _)
  refine RowFn.dotGeneral ?_ _ none _
  refine RowFn.relu ?_ _ (zero_bcast _)
  refine RowFn.dotGeneral ?_ _ none _
  exact fgIn_rows x0 x1 x2 x3 x4 x5 x6 x7 x8 x9 x10 x11 x12 x13 x14

/-! ## The densities and the uncertainty -/

/-- The background density: the softplus of output 0 of the background density branch. -/
theorem bgS_col : ColFn (R := 1048576) (val_main_v13 (F := Ideal) x0 x1 x2 x3) x0 (bgS (wts x1 x2 x3 x4 x5 x6 x7 x8 x9 x10 x11 x12 x13 x14)) := by
  have h12 : ColFn (R := 1048576) (val_main_v12 (F := Ideal) x0 x1 x2 x3) x0 (fun x => bgH (wts x1 x2 x3 x4 x5 x6 x7 x8 x9 x10 x11 x12 x13 x14) x 0) := by
    unfold val_main_v12 val_main_v11
    exact ColFn.of_reshape (RowFn.slice (bgH_rows x0 x1 x2 x3 x4 x5 x6 x7 x8 x9 x10 x11 x12 x13 x14) 0 _ (by decide)) _
  refine ColFn.map h12 _ sp (fun i => ?_)
  unfold val_main_v13 val_main_call2_v11 val_main_call2_v10 val_main_call2_v9 val_main_call2_v8 val_main_call2_v7
    val_main_call2_v6 val_main_call2_v5 val_main_call2_v4 val_main_call2_v3 val_main_call2_v2 val_main_call2_v1 val_main_call2_v0
    val_main_call2_cst
  exact softplus_apply _ _ i

/-- The foreground density: the softplus of output 0 of the foreground density branch. -/
theorem fgS_col : ColFn (R := 1048576) (val_main_v40 (F := Ideal) x0 x8 x9 x10) x0 (fgS (wts x1 x2 x3 x4 x5 x6 x7 x8 x9 x10 x11 x12 x13 x14)) := by
  have h39 : ColFn (R := 1048576) (val_main_v39 (F := Ideal) x0 x8 x9 x10) x0 (fun x => fgH (wts x1 x2 x3 x4 x5 x6 x7 x8 x9 x10 x11 x12 x13 x14) x 0) := by
    unfold val_main_v39 val_main_v38
    exact ColFn.of_reshape (RowFn.slice (fgH_rows x0 x1 x2 x3 x4 x5 x6 x7 x8 x9 x10 x11 x12 x13 x14) 0 _ (by decide)) _
  refine ColFn.map h39 _ sp (fun i => ?_)
  unfold val_main_v40 val_main_call9_v11 val_main_call9_v10 val_main_call9_v9 val_main_call9_v8 val_main_call9_v7
    val_main_call9_v6 val_main_call9_v5 val_main_call9_v4 val_main_call9_v3 val_main_call9_v2 val_main_call9_v1 val_main_call9_v0
    val_main_call9_cst
  exact softplus_apply _ _ i

/-- The foreground uncertainty: the softplus of output 1 of the foreground density branch. -/
theorem fgU_col : ColFn (R := 1048576) (val_main_v43 (F := Ideal) x0 x8 x9 x10) x0 (fgU (wts x1 x2 x3 x4 x5 x6 x7 x8 x9 x10 x11 x12 x13 x14)) := by
  have h42 : ColFn (R := 1048576) (val_main_v42 (F := Ideal) x0 x8 x9 x10) x0 (fun x => fgH (wts x1 x2 x3 x4 x5 x6 x7 x8 x9 x10 x11 x12 x13 x14) x 1) := by
    unfold val_main_v42 val_main_v41
    exact ColFn.of_reshape (RowFn.slice (fgH_rows x0 x1 x2 x3 x4 x5 x6 x7 x8 x9 x10 x11 x12 x13 x14) 1 _ (by decide)) _
  refine ColFn.map h42 _ sp (fun i => ?_)
  unfold val_main_v43 val_main_call10_v11 val_main_call10_v10 val_main_call10_v9 val_main_call10_v8 val_main_call10_v7
    val_main_call10_v6 val_main_call10_v5 val_main_call10_v4 val_main_call10_v3 val_main_call10_v2 val_main_call10_v1 val_main_call10_v0
    val_main_call10_cst
  exact softplus_apply _ _ i

/-- The total density: the two densities and the small constant. -/
theorem tot_col : ColFn (R := 1048576) (val_main_v59 (F := Ideal) x0 x1 x2 x3 x8 x9 x10) x0 (tot (wts x1 x2 x3 x4 x5 x6 x7 x8 x9 x10 x11 x12 x13 x14)) := by
  have h57 : ColFn (R := 1048576) (val_main_v57 (F := Ideal) x0 x1 x2 x3 x8 x9 x10) x0 (fun x => bgS (wts x1 x2 x3 x4 x5 x6 x7 x8 x9 x10 x11 x12 x13 x14) x + fgS (wts x1 x2 x3 x4 x5 x6 x7 x8 x9 x10 x11 x12 x13 x14) x) :=
    ColFn.map₂ (bgS_col x0 x1 x2 x3 x4 x5 x6 x7 x8 x9 x10 x11 x12 x13 x14) (fgS_col x0 x1 x2 x3 x4 x5 x6 x7 x8 x9 x10 x11 x12 x13 x14) _ (· + ·) (fun _ => rfl)
  have h58 : ColFn (R := 1048576) (val_main_v58 (F := Ideal)) x0 (fun _ => eps) :=
    fun p => val_main_v58_apply (F := Ideal) (ix1 p)
  exact ColFn.map₂ h57 h58 _ (· + ·) (fun _ => rfl)

/-! ## The mix and the result -/

/-- The background's share of the total density, repeated over three columns. -/
theorem bgShare_rows : RowFn (R := 1048576) (val_main_v62 (F := Ideal) x0 x1 x2 x3 x8 x9 x10) x0 (fun x _ => Ideal.div (bgS (wts x1 x2 x3 x4 x5 x6 x7 x8 x9 x10 x11 x12 x13 x14) x) (tot (wts x1 x2 x3 x4 x5 x6 x7 x8 x9 x10 x11 x12 x13 x14) x)) := by
  have h60 : ColFn (R := 1048576) (val_main_v60 (F := Ideal) x0 x1 x2 x3 x8 x9 x10) x0 (fun x => Ideal.div (bgS (wts x1 x2 x3 x4 x5 x6 x7 x8 x9 x10 x11 x12 x13 x14) x) (tot (wts x1 x2 x3 x4 x5 x6 x7 x8 x9 x10 x11 x12 x13 x14) x)) :=
    ColFn.map₂ (bgS_col x0 x1 x2 x3 x4 x5 x6 x7 x8 x9 x10 x11 x12 x13 x14) (tot_col x0 x1 x2 x3 x4 x5 x6 x7 x8 x9 x10 x11 x12 x13 x14) _ Ideal.div (fun _ => rfl)
  unfold val_main_v62 val_main_v61
  exact RowFn.bcastCols (RowFn.of_col h60 _ (by decide)) _ (by decide)

/-- The foreground's share of the total density, repeated over three columns. -/
theorem fgShare_rows : RowFn (R := 1048576) (val_main_v66 (F := Ideal) x0 x1 x2 x3 x8 x9 x10) x0 (fun x _ => Ideal.div (fgS (wts x1 x2 x3 x4 x5 x6 x7 x8 x9 x10 x11 x12 x13 x14) x) (tot (wts x1 x2 x3 x4 x5 x6 x7 x8 x9 x10 x11 x12 x13 x14) x)) := by
  have h64 : ColFn (R := 1048576) (val_main_v64 (F := Ideal) x0 x1 x2 x3 x8 x9 x10) x0 (fun x => Ideal.div (fgS (wts x1 x2 x3 x4 x5 x6 x7 x8 x9 x10 x11 x12 x13 x14) x) (tot (wts x1 x2 x3 x4 x5 x6 x7 x8 x9 x10 x11 x12 x13 x14) x)) :=
    ColFn.map₂ (fgS_col x0 x1 x2 x3 x4 x5 x6 x7 x8 x9 x10 x11 x12 x13 x14) (tot_col x0 x1 x2 x3 x4 x5 x6 x7 x8 x9 x10 x11 x12 x13 x14) _ Ideal.div (fun _ => rfl)
  unfold val_main_v66 val_main_v65
  exact RowFn.bcastCols (RowFn.of_col h64 _ (by decide)) _ (by decide)

/-- The mixed colour: each colour weighted by its share of the total density. -/
theorem mix_rows : RowFn (R := 1048576) (val_main_v68 (F := Ideal) x0 x1 x2 x3 x4 x5 x6 x7 x8 x9 x10 x11 x12 x13 x14) x0 (mix (wts x1 x2 x3 x4 x5 x6 x7 x8 x9 x10 x11 x12 x13 x14)) := by
  have h63 : RowFn (R := 1048576) (val_main_v63 (F := Ideal) x0 x1 x2 x3 x4 x5 x6 x7 x8 x9 x10) x0
      (fun x q => Ideal.div (bgS (wts x1 x2 x3 x4 x5 x6 x7 x8 x9 x10 x11 x12 x13 x14) x) (tot (wts x1 x2 x3 x4 x5 x6 x7 x8 x9 x10 x11 x12 x13 x14) x) * bgC (wts x1 x2 x3 x4 x5 x6 x7 x8 x9 x10 x11 x12 x13 x14) x q) :=
    RowFn.map₂ (bgShare_rows x0 x1 x2 x3 x4 x5 x6 x7 x8 x9 x10 x11 x12 x13 x14) (bgC_rows x0 x1 x2 x3 x4 x5 x6 x7 x8 x9 x10 x11 x12 x13 x14) _ (· * ·) (fun _ => rfl)
  have h67 : RowFn (R := 1048576) (val_main_v67 (F := Ideal) x0 x1 x2 x3 x8 x9 x10 x11 x12 x13 x14) x0
      (fun x q => Ideal.div (fgS (wts x1 x2 x3 x4 x5 x6 x7 x8 x9 x10 x11 x12 x13 x14) x) (tot (wts x1 x2 x3 x4 x5 x6 x7 x8 x9 x10 x11 x12 x13 x14) x) * fgC (wts x1 x2 x3 x4 x5 x6 x7 x8 x9 x10 x11 x12 x13 x14) x q) :=
    RowFn.map₂ (fgShare_rows x0 x1 x2 x3 x4 x5 x6 x7 x8 x9 x10 x11 x12 x13 x14) (fgC_rows x0 x1 x2 x3 x4 x5 x6 x7 x8 x9 x10 x11 x12 x13 x14) _ (· * ·) (fun _ => rfl)
  exact RowFn.map₂ h63 h67 _ (· + ·) (fun _ => rfl)

/-- The reference's result: row by row, the result row of the network with the reference's weights. -/
theorem ref_rows : RowFn (R := 1048576) (val_main_v72 (F := Ideal) x0 x1 x2 x3 x4 x5 x6 x7 x8 x9 x10 x11 x12 x13 x14) x0 (Cert.Nerf.rowOut (wts x1 x2 x3 x4 x5 x6 x7 x8 x9 x10 x11 x12 x13 x14)) := by
  have h69 : RowFn (R := 1048576) (val_main_v69 (F := Ideal) x0 x1 x2 x3 x8 x9 x10) x0 (fun x _ => tot (wts x1 x2 x3 x4 x5 x6 x7 x8 x9 x10 x11 x12 x13 x14) x) := by
    unfold val_main_v69
    exact RowFn.of_col (tot_col x0 x1 x2 x3 x4 x5 x6 x7 x8 x9 x10 x11 x12 x13 x14) _ (by decide)
  have h70 : RowFn (R := 1048576) (val_main_v70 (F := Ideal) x0 x8 x9 x10) x0 (fun x _ => fgU (wts x1 x2 x3 x4 x5 x6 x7 x8 x9 x10 x11 x12 x13 x14) x) := by
    unfold val_main_v70
    exact RowFn.of_col (fgU_col x0 x1 x2 x3 x4 x5 x6 x7 x8 x9 x10 x11 x12 x13 x14) _ (by decide)
  have h71 : RowFn (R := 1048576) (val_main_v71 (F := Ideal) x0 x8 x9 x10) x0 (fun x _ => fgS (wts x1 x2 x3 x4 x5 x6 x7 x8 x9 x10 x11 x12 x13 x14) x) := by
    unfold val_main_v71
    exact RowFn.of_col (fgS_col x0 x1 x2 x3 x4 x5 x6 x7 x8 x9 x10 x11 x12 x13 x14) _ (by decide)
  unfold val_main_v72
  exact RowFn.cat4 (mix_rows x0 x1 x2 x3 x4 x5 x6 x7 x8 x9 x10 x11 x12 x13 x14) h69 h70 h71 _

end Cert.ReferenceIdeal.Hand

end
-- ==== Proof.Bridge.lean ====
/-
  The two programs use the same weights and compute the same array.

  Before its region the kernel's program transposes each weight array (and changes its format, which is the identity
  on extended reals); the reference transposes each weight array before each product. So the fourteen arrays the
  region finds are the reference's fourteen transposes, and the array whose rows are `rowOut` of the input's rows is
  the reference's result.
-/
import proofs.«116642_j48120813584957_1_alg».proof.Proof.KernelArray
import proofs.«116642_j48120813584957_1_alg».proof.Proof.RefRows
import Idealize.ShloMosaic.Lib.StableHlo.Run

set_option maxRecDepth 16384

noncomputable section

namespace Cert.KernelIdeal.Bridge

open Idealize.ShloMosaic Idealize.ShloMosaic.TcCoe Idealize.SL.Sem Idealize.ShloMosaic.StableHlo Idealize.ShloMosaic.ValueIdx
open Cert.KernelIdeal Cert.KernelIdeal.Gen Cert.Nerf

variable (m : (ℓ : Loc nD τ sig) → Buf (Elt Ideal) ℓ)

/-! ## Each weight array as the region finds it is the reference's transpose of the argument -/

theorem w1 (c : Dev nD) : (V m c main_v1 : S63x64.Idx → EReal)
    = Cert.ReferenceIdeal.Read.val_main_v3 (F := Ideal) (m ((c : Thread nD τ).loc main_arg1)) := by
  unfold Cert.ReferenceIdeal.Read.val_main_v3
  dsimp only [Gen.V, Gen.hostOps0]
  after_results
  rfl

theorem w2 (c : Dev nD) : (V m c main_v3 : S64x64.Idx → EReal)
    = Cert.ReferenceIdeal.Read.val_main_v6 (F := Ideal) (m ((c : Thread nD τ).loc main_arg2)) := by
  unfold Cert.ReferenceIdeal.Read.val_main_v6
  dsimp only [Gen.V, Gen.hostOps0]
  after_results
  rfl

theorem w3 (c : Dev nD) : (V m c main_v5 : S64x17.Idx → EReal)
    = Cert.ReferenceIdeal.Read.val_main_v9 (F := Ideal) (m ((c : Thread nD τ).loc main_arg3)) := by
  unfold Cert.ReferenceIdeal.Read.val_main_v9
  dsimp only [Gen.V, Gen.hostOps0]
  after_results
  rfl

theorem w4 (c : Dev nD) : (V m c main_v7 : S42x64.Idx → EReal)
    = Cert.ReferenceIdeal.Read.val_main_v19 (F := Ideal) (m ((c : Thread nD τ).loc main_arg4)) := by
  unfold Cert.ReferenceIdeal.Read.val_main_v19
  dsimp only [Gen.V, Gen.hostOps0]
  after_results
  rfl

theorem w5 (c : Dev nD) : (V m c main_v9 : S64x64.Idx → EReal)
    = Cert.ReferenceIdeal.Read.val_main_v22 (F := Ideal) (m ((c : Thread nD τ).loc main_arg5)) := by
  unfold Cert.ReferenceIdeal.Read.val_main_v22
  dsimp only [Gen.V, Gen.hostOps0]
  after_results
  rfl

theorem w6 (c : Dev nD) : (V m c main_v11 : S64x64.Idx → EReal)
    = Cert.ReferenceIdeal.Read.val_main_v25 (F := Ideal) (m ((c : Thread nD τ).loc main_arg6)) := by
  unfold Cert.ReferenceIdeal.Read.val_main_v25
  dsimp only [Gen.V, Gen.hostOps0]
  after_results
  rfl

theorem w7 (c : Dev nD) : (V m c main_v13 : S64x3.Idx → EReal)
    = Cert.ReferenceIdeal.Read.val_main_v28 (F := Ideal) (m ((c : Thread nD τ).loc main_arg7)) := by
  unfold Cert.ReferenceIdeal.Read.val_main_v28
  dsimp only [Gen.V, Gen.hostOps0]
  after_results
  rfl

theorem w8 (c : Dev nD) : (V m c main_v15 : S71x64.Idx → EReal)
    = Cert.ReferenceIdeal.Read.val_main_v30 (F := Ideal) (m ((c : Thread nD τ).loc main_arg8)) := by
  unfold Cert.ReferenceIdeal.Read.val_main_v30
  dsimp only [Gen.V, Gen.hostOps0]
  after_results
  rfl

theorem w9 (c : Dev nD) : (V m c main_v17 : S64x64.Idx → EReal)
    = Cert.ReferenceIdeal.Read.val_main_v33 (F := Ideal) (m ((c : Thread nD τ).loc main_arg9)) := by
  unfold Cert.ReferenceIdeal.Read.val_main_v33
  dsimp only [Gen.V, Gen.hostOps0]
  after_results
  rfl

theorem w10 (c : Dev nD) : (V m c main_v19 : S64x17.Idx → EReal)
    = Cert.ReferenceIdeal.Read.val_main_v36 (F := Ideal) (m ((c : Thread nD τ).loc main_arg10)) := by
  unfold Cert.ReferenceIdeal.Read.val_main_v36
  dsimp only [Gen.V, Gen.hostOps0]
  after_results
  rfl

theorem w11 (c : Dev nD) : (V m c main_v21 : S42x64.Idx → EReal)
    = Cert.ReferenceIdeal.Read.val_main_v46 (F := Ideal) (m ((c : Thread nD τ).loc main_arg11)) := by
  unfold Cert.ReferenceIdeal.Read.val_main_v46
  dsimp only [Gen.V, Gen.hostOps0]
  after_results
  rfl

theorem w12 (c : Dev nD) : (V m c main_v23 : S64x64.Idx → EReal)
    = Cert.ReferenceIdeal.Read.val_main_v49 (F := Ideal) (m ((c : Thread nD τ).loc main_arg12)) := by
  unfold Cert.ReferenceIdeal.Read.val_main_v49
  dsimp only [Gen.V, Gen.hostOps0]
  after_results
  rfl

theorem w13 (c : Dev nD) : (V m c main_v25 : S64x64.Idx → EReal)
    = Cert.ReferenceIdeal.Read.val_main_v52 (F := Ideal) (m ((c : Thread nD τ).loc main_arg13)) := by
  unfold Cert.ReferenceIdeal.Read.val_main_v52
  dsimp only [Gen.V, Gen.hostOps0]
  after_results
  rfl

theorem w14 (c : Dev nD) : (V m c main_v27 : S64x3.Idx → EReal)
    = Cert.ReferenceIdeal.Read.val_main_v55 (F := Ideal) (m ((c : Thread nD τ).loc main_arg14)) := by
  unfold Cert.ReferenceIdeal.Read.val_main_v55
  dsimp only [Gen.V, Gen.hostOps0]
  after_results
  rfl

/-- The region's fourteen weight arrays are the reference's. -/
theorem kW_eq (c : Dev nD) :
    Cert.KernelIdeal.Hand.kW m c = Cert.ReferenceIdeal.Hand.wts (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  unfold Cert.KernelIdeal.Hand.kW Cert.KernelIdeal.Hand.blockWts Cert.ReferenceIdeal.Hand.wts
  rw [w1, w2, w3, w4, w5, w6, w7, w8, w9, w10, w11, w12, w13, w14]

/-- The array the kernel's result ends holding is the reference's result, of the same arguments. -/
theorem result_eq (c : Dev nD) :
    Cert.KernelIdeal.Hand.G m c
      = Cert.ReferenceIdeal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  funext i
  obtain ⟨p, q, rfl⟩ : ∃ (p : Fin 1048576) (q : Fin 6), i = ix2 p q := ⟨i 0, i 1, eq_ix2 i⟩
  refine Eq.trans ?_ (Cert.ReferenceIdeal.Hand.ref_rows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) p q).symm
  show rowOut (Cert.KernelIdeal.Hand.kW m c) (rowOf (V m c main_arg0) p) q = _
  rw [kW_eq, V_main_arg0]

end Cert.KernelIdeal.Bridge

end
-- ==== Proof.lean ====
/-
  The kernel against its reference: a two-network radiance field evaluated row by row.

  Each of the 1048576 rows of the input (63 position features, 8 time features, 27 view features) goes through a
  background network (fed the position features) and a foreground network (fed position and time). A network is a
  density branch (three linear layers, rectifiers between) and a colour branch (four linear layers over the view
  features and fifteen of the density branch's outputs); the softplus of the density branch's first output is the
  density, of its second the uncertainty. The result row is the density-weighted mix of the two colours, the total
  density (plus a small constant), the foreground uncertainty and the foreground density.

  The kernel does this for blocks of 16384 rows on a grid of 64 points with the weights transposed beforehand; the
  reference does it for the whole array at once, transposing each weight before its product. On the extended reals a
  change of float format is the identity, the kernel's matrix product into a zero accumulator and the host's
  contraction are the same sum in the same order, and the not-a-number guard inside the softplus never fires, so both
  programs compute, row by row, one function `rowOut` (Proof/RowSpec.lean); no law that needs finite inputs is used.

  Proof/RowOps.lean: how each array operation acts on arrays whose rows are a function of the input's rows.
  Proof/KernelRows.lean: the block a grid point stores has rows `rowOut`. Proof/KernelArray.lean: the 64 blocks make
  the whole result array. Proof/RefRows.lean: the reference's result has rows `rowOut`. Proof/Bridge.lean: the two
  programs' weights agree, hence the two results.
-/
import proofs.«116642_j48120813584957_1_alg».proof.Defs
import proofs.«116642_j48120813584957_1_alg».proof.Proof.Gen.Kernel
import proofs.«116642_j48120813584957_1_alg».proof.Proof.Gen.Kernel.Skeleton
import proofs.«116642_j48120813584957_1_alg».proof.Proof.Gen.Kernel.Launch
import proofs.«116642_j48120813584957_1_alg».proof.Proof.Gen.Kernel.Points
import proofs.«116642_j48120813584957_1_alg».proof.Proof.Gen.Kernel.Frame
import proofs.«116642_j48120813584957_1_alg».proof.Proof.Gen.KernelIdeal
import proofs.«116642_j48120813584957_1_alg».proof.Proof.Gen.KernelIdeal.Skeleton
import proofs.«116642_j48120813584957_1_alg».proof.Proof.Gen.KernelIdeal.Launch
import proofs.«116642_j48120813584957_1_alg».proof.Proof.Gen.KernelIdeal.Points
import proofs.«116642_j48120813584957_1_alg».proof.Proof.Gen.KernelIdeal.Frame
import proofs.«116642_j48120813584957_1_alg».proof.Proof.Gen.ReferenceIdeal
import proofs.«116642_j48120813584957_1_alg».proof.Proof.Gen.Pre_finite_inputs
import proofs.«116642_j48120813584957_1_alg».proof.Proof.Gen.KernelIdeal.Value
import proofs.«116642_j48120813584957_1_alg».proof.Proof.Gen.ReferenceIdeal.Run
import proofs.«116642_j48120813584957_1_alg».proof.Proof.Gen.ReferenceIdeal.Read
import proofs.«116642_j48120813584957_1_alg».proof.Proof.KernelArray
import proofs.«116642_j48120813584957_1_alg».proof.Proof.RefRows
import proofs.«116642_j48120813584957_1_alg».proof.Proof.Bridge
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel :=
  fun m ρ _ => Cert.Kernel.Gen.frame m ρ

/-- So does the kernel read on the extended reals. -/
theorem frame_ki : Cert.frame_KernelIdeal :=
  fun m ρ _ => Cert.KernelIdeal.Gen.frame m ρ

/-- So does the reference: its run with the result dropped. -/
theorem frame_ri : Cert.frame_ReferenceIdeal :=
  fun m ρ _ => (θ_run Cert.ReferenceIdeal.defs _ _).mono (fun _ h c => (h c).2)
    (Cert.ReferenceIdeal.Value.run (F := Ideal) m ρ)

/-- From memories that agree on the arguments, the kernel's result array ends at the array whose rows are `rowOut`
    of the input's rows, and the reference's result is that same array. -/
theorem algebraic : Cert.algebraic_KernelIdeal_ReferenceIdeal := by
  intro m ρ m' ρ' _ hagree
  refine ⟨fun c => Cert.KernelIdeal.Hand.G m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v72_eq]
  obtain ⟨h0, h1, h2, h3, h4, h5, h6, h7, h8, h9, h10, h11, h12, h13, h14⟩ := hagree c
  rw [h0, h1, h2, h3, h4, h5, h6, h7, h8, h9, h10, h11, h12, h13, h14]
  exact (Cert.KernelIdeal.Bridge.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
